-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S64x4096 : Shape := ⟨2, ![64, 4096]⟩
abbrev S8x4096 : Shape := ⟨2, ![8, 4096]⟩
abbrev S1x4096 : Shape := ⟨2, ![1, 4096]⟩
abbrev S63x4096 : Shape := ⟨2, ![63, 4096]⟩
abbrev S64x1 : Shape := ⟨2, ![64, 1]⟩
abbrev S64x4095 : Shape := ⟨2, ![64, 4095]⟩

abbrev nBuf : Space → Nat
  | .hbm => 8
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .local _ .vmem, ⟨0, _⟩ => ⟨S64x4096, .f32⟩
  | .local _ .vmem, ⟨1, _⟩ => ⟨S64x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S64x4096_S64x4096_0_0 : ∀ a, (![0, 0] : Fin 2 → Nat) a + S64x4096.size a ≤ S64x4096.size a
  h_S64x4096 : 0 < S64x4096.numel
  slices_S64x4096_o1_0_S1x4096 : S64x4096.Slices ![1, 0] S1x4096
  inb_S8x4096_S1x4096_7_0 : ∀ a, (![7, 0] : Fin 2 → Nat) a + S1x4096.size a ≤ S8x4096.size a
  h_S1x4096 : 0 < S1x4096.numel
  slices_S64x4096_o0_0_S63x4096 : S64x4096.Slices ![0, 0] S63x4096
  concatenates_S1x4096_S63x4096_S64x4096_d0 : Shape.Concatenates [S1x4096, S63x4096] S64x4096 0
  slices_S64x4096_o62_0_S1x4096 : S64x4096.Slices ![62, 0] S1x4096
  inb_S8x4096_S1x4096_0_0 : ∀ a, (![0, 0] : Fin 2 → Nat) a + S1x4096.size a ≤ S8x4096.size a
  slices_S64x4096_o1_0_S63x4096 : S64x4096.Slices ![1, 0] S63x4096
  concatenates_S63x4096_S1x4096_S64x4096_d0 : Shape.Concatenates [S63x4096, S1x4096] S64x4096 0
  slices_S64x4096_o0_1_S64x1 : S64x4096.Slices ![0, 1] S64x1
  slices_S64x4096_o0_0_S64x4095 : S64x4096.Slices ![0, 0] S64x4095
  concatenates_S64x1_S64x4095_S64x4096_d1 : Shape.Concatenates [S64x1, S64x4095] S64x4096 1
  slices_S64x4096_o0_1_S64x4095 : S64x4096.Slices ![0, 1] S64x4095
  slices_S64x4096_o0_4094_S64x1 : S64x4096.Slices ![0, 4094] S64x1
  concatenates_S64x4095_S64x1_S64x4096_d1 : Shape.Concatenates [S64x4095, S64x1] S64x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S4096x4096.size a
  hwx0_0 : ∀ i : grid0.Coords, EltTy.bits .f32 = 32 ∨ (Rect.block (s := S4096x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S4096x4096.size a
  hwx0_1 : ∀ i : grid0.Coords, EltTy.bits .f32 = 32 ∨ (Rect.block (s := S4096x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S4096x4096.size a
  hwx0_2 : ∀ i : grid0.Coords, EltTy.bits .f32 = 32 ∨ (Rect.block (s := S4096x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S4096x4096.size a
  hwx0_3 : ∀ i : grid0.Coords, EltTy.bits .f32 = 32 ∨ (Rect.block (s := S4096x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S4096x4096.size a
  hwx0_4 : ∀ i : grid0.Coords, EltTy.bits .f32 = 32 ∨ (Rect.block (s := S4096x4096) S64x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S4096x4096.size a
  hwx0_5 : ∀ i : grid0.Coords, EltTy.bits .f32 = 32 ∨ (Rect.block (s := S4096x4096) S64x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x4096.size a ≤ S4096x4096.size a
  hwx0_6 : ∀ i : grid0.Coords, EltTy.bits .f32 = 32 ∨ (Rect.block (s := S4096x4096) S64x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x4096.size a ≤ S4096x4096.size a
  hwx0_7 : ∀ i : grid0.Coords, EltTy.bits .f32 = 32 ∨ (Rect.block (s := S4096x4096) S64x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x4096.size a ≤ S4096x4096.size a
  hwx0_8 : ∀ i : grid0.Coords, EltTy.bits .f32 = 32 ∨ (Rect.block (s := S4096x4096) S64x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x4096.size a ≤ S4096x4096.size a
  hwx0_9 : ∀ i : grid0.Coords, EltTy.bits .f32 = 32 ∨ (Rect.block (s := S4096x4096) S64x4096.size (cc0_transform_9 i) (hinb0_9 i)).WholeWords (EltTy.packing .f32)

variable [Facts₀]

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S64x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S64x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S64x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S64x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S1x4096 : Shape := ⟨2, ![1, 4096]⟩
abbrev S4097x4096 : Shape := ⟨2, ![4097, 4096]⟩
abbrev S4098x4096 : Shape := ⟨2, ![4098, 4096]⟩
abbrev S4098x1 : Shape := ⟨2, ![4098, 1]⟩
abbrev S4098x4097 : Shape := ⟨2, ![4098, 4097]⟩
abbrev S4098x4098 : Shape := ⟨2, ![4098, 4098]⟩

abbrev nBuf : Space → Nat
  | .hbm => 81
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .i32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S4097x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4098x4096, .f32⟩
  | .hbm, ⟨13, _⟩ => ⟨S4098x1, .f32⟩
  | .hbm, ⟨14, _⟩ => ⟨S4098x1, .f32⟩
  | .hbm, ⟨15, _⟩ => ⟨S4098x1, .f32⟩
  | .hbm, ⟨16, _⟩ => ⟨S4098x4097, .f32⟩
  | .hbm, ⟨17, _⟩ => ⟨S4098x1, .f32⟩
  | .hbm, ⟨18, _⟩ => ⟨S4098x1, .f32⟩
  | .hbm, ⟨19, _⟩ => ⟨S4098x1, .f32⟩
  | .hbm, ⟨20, _⟩ => ⟨S4098x4098, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_call1_cst : Ref sig .tc := ⟨.hbm, 55, rfl⟩
abbrev main_call1_v0 : Ref sig .tc := ⟨.hbm, 56, rfl⟩
abbrev main_v28 : Ref sig .tc := ⟨.hbm, 57, rfl⟩
abbrev main_cst_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call2_cst : Ref sig .tc := ⟨.hbm, 66, rfl⟩
abbrev main_call2_v0 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_10 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  slices_S4096x4096_S1x4096_0_0 : S4096x4096.Slices ![0, 0] S1x4096
  slices_S4096x4096_S1x4096_1_0 : S4096x4096.Slices ![1, 0] S1x4096
  concatenates_S1x4096_S4096x4096_S4097x4096_d0 : Shape.Concatenates [S1x4096, S4096x4096] S4097x4096 0
  slices_S4097x4096_S1x4096_4096_0 : S4097x4096.Slices ![4096, 0] S1x4096
  slices_S4097x4096_S1x4096_4095_0 : S4097x4096.Slices ![4095, 0] S1x4096
  concatenates_S4097x4096_S1x4096_S4098x4096_d0 : Shape.Concatenates [S4097x4096, S1x4096] S4098x4096 0
  slices_S4098x4096_S4098x1_0_0 : S4098x4096.Slices ![0, 0] S4098x1
  slices_S4098x4096_S4098x1_0_1 : S4098x4096.Slices ![0, 1] S4098x1
  concatenates_S4098x1_S4098x4096_S4098x4097_d1 : Shape.Concatenates [S4098x1, S4098x4096] S4098x4097 1
  slices_S4098x4097_S4098x1_0_4096 : S4098x4097.Slices ![0, 4096] S4098x1
  slices_S4098x4097_S4098x1_0_4095 : S4098x4097.Slices ![0, 4095] S4098x1
  concatenates_S4098x4097_S4098x1_S4098x4098_d1 : Shape.Concatenates [S4098x4097, S4098x1] S4098x4098 1
  slices_S4098x4098_S4096x4096_2_1 : S4098x4098.Slices ![2, 1] S4096x4096
  slices_S4098x4098_S4096x4096_0_1 : S4098x4098.Slices ![0, 1] S4096x4096
  slices_S4098x4098_S4096x4096_1_2 : S4098x4098.Slices ![1, 2] S4096x4096
  slices_S4098x4098_S4096x4096_1_0 : S4098x4098.Slices ![1, 0] S4096x4096
  bcast_S_S4096x4096 : S_.BroadcastsInDim S4096x4096 (![] : Fin 0 → Fin S4096x4096.rank)

variable [Facts₀]

class Facts : Prop extends Facts₀ where

variable [Facts]
-- ==== Proof.KOut.lean ====
/-
  What the kernel body leaves in each of its four output blocks at a grid point, as a pure function
  of the point and of the six input blocks it was handed: the 64-row tile of the voltage, the two
  8-row halo blocks (of which it reads row 7 of the one above and row 0 of the one below), and the
  tiles of the three ion arrays. Each output block is stored whole by one store.
-/
import proofs.«161542_j59382217834966_1_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- The whole 64 × 4096 tile, as a rectangle of itself. -/
abbrev rTile : Rect S64x4096 := Rect.unit (s := S64x4096) ![0, 0] S64x4096.size inb_S64x4096_S64x4096_0_0
/-- Row 7 of an 8-row halo block. -/
abbrev rLast : Rect S8x4096 := Rect.unit (s := S8x4096) ![7, 0] S1x4096.size inb_S8x4096_S1x4096_7_0
/-- Row 0 of an 8-row halo block. -/
abbrev rFirst : Rect S8x4096 := Rect.unit (s := S8x4096) ![0, 0] S1x4096.size inb_S8x4096_S1x4096_0_0

/-- The scale of the voltage step, the word of 0.1. -/
abbrev stepWord : F .f32 := Scalar.ofBits .f32 0x3DCCCCCD#32

/-- The voltage update of the tile at point `i`: the skeleton's payload over the loaded blocks. -/
def upd (i : grid0.Coords) (x0 : Vec F S64x4096 .f32) (xa xb : Vec F S8x4096 .f32) (x3 x4 x5 : Vec F S64x4096 .f32) :
    FVec F S64x4096 .f32 :=
  k0_pay5 i (View.ld x0 rTile) (View.ld x3 rTile) (View.ld x4 rTile) (View.ld x5 rTile) (View.ld xa rLast) (View.ld xb rFirst)

/-- The four output blocks after the body: one covering store each. -/
def outV (i : grid0.Coords) (x0 : Vec F S64x4096 .f32) (xa xb : Vec F S8x4096 .f32) (x3 x4 x5 : Vec F S64x4096 .f32) : Vec F S64x4096 .f32 :=
  View.canon [⟨rTile, k0_pay1 (View.ld x0 rTile) (upd i x0 xa xb x3 x4 x5) stepWord⟩]
def outS (i : grid0.Coords) (x0 : Vec F S64x4096 .f32) (xa xb : Vec F S8x4096 .f32) (x3 x4 x5 : Vec F S64x4096 .f32) : Vec F S64x4096 .f32 :=
  View.canon [⟨rTile, k0_pay2 (View.ld x0 rTile) (View.ld x3 rTile) (upd i x0 xa xb x3 x4 x5) stepWord⟩]
def outP (i : grid0.Coords) (x0 : Vec F S64x4096 .f32) (xa xb : Vec F S8x4096 .f32) (x3 x4 x5 : Vec F S64x4096 .f32) : Vec F S64x4096 .f32 :=
  View.canon [⟨rTile, k0_pay3 (View.ld x0 rTile) (View.ld x4 rTile) (upd i x0 xa xb x3 x4 x5) stepWord⟩]
def outC (i : grid0.Coords) (x0 : Vec F S64x4096 .f32) (xa xb : Vec F S8x4096 .f32) (x3 x4 x5 : Vec F S64x4096 .f32) : Vec F S64x4096 .f32 :=
  View.canon [⟨rTile, k0_pay4 (View.ld x0 rTile) (View.ld x5 rTile) (upd i x0 xa xb x3 x4 x5) stepWord⟩]

end Cert.Kernel.Hand

end
-- ==== Proof.KBody.lean ====
/-
  The kernel body's triple: on whole staging memrefs, the six input blocks at contents it only reads
  and the four output blocks at anything, the body runs to its return leaving the inputs as they were
  and each output block at the body's pure result on the inputs (Proof/KOut.lean). The loads of
  the output blocks that precede their stores read values nothing uses.
-/
import proofs.«161542_j59382217834966_1_alg».proof.Proof.KOut
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The one whole-tile store covers the block: every index lies in the tile's rectangle. -/
theorem cover_tile (p0 : Vec F S64x4096 .f32) (y : S64x4096.Idx) :
    ∃ pc ∈ ([⟨rTile, p0⟩] : List (View.Piece (Elt F) S64x4096 .f32)), y ∈ pc.1.set :=
  View.cover_of_tiled [⟨rTile, p0⟩] S64x4096.size (by rfl) y

set_option maxHeartbeats 1000000 in
/-- The body at any point `i`, on any whole memrefs. -/
theorem sound_kernel (c : Dev nD) (E : Set ℕ) (i : grid0.Coords) (arg1 : Memref sig .tc .vmem S64x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x4096 .f32) (harg7 : arg7.IsWhole) (arg8 : Memref sig .tc .vmem S64x4096 .f32) (harg8 : arg8.IsWhole) (arg9 : Memref sig .tc .vmem S64x4096 .f32) (harg9 : arg9.IsWhole) (arg10 : Memref sig .tc .vmem S64x4096 .f32) (harg10 : arg10.IsWhole)
    (x0 : Vec F S64x4096 .f32) (xa xb : Vec F S8x4096 .f32) (x3 x4 x5 : Vec F S64x4096 .f32) (K : PUnit → sProp 𝕄) :
    iprop(owns (c : Thread nD τ) arg1 fullShare x0 ∗ owns (c : Thread nD τ) arg2 fullShare xa ∗ owns (c : Thread nD τ) arg3 fullShare xb
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare xa ∗ owns (c : Thread nD τ) arg3 fullShare xb
        ∗ owns (c : Thread nD τ) arg4 fullShare x3 ∗ owns (c : Thread nD τ) arg5 fullShare x4 ∗ owns (c : Thread nD τ) arg6 fullShare x5
            ∗ owns (c : Thread nD τ) arg7 fullShare (outV i x0 xa xb x3 x4 x5) ∗ owns (c : Thread nD τ) arg8 fullShare (outS i x0 xa xb x3 x4 x5)
            ∗ owns (c : Thread nD τ) arg9 fullShare (outP i x0 xa xb x3 x4 x5) ∗ owns (c : Thread nD τ) arg10 fullShare (outC i x0 xa xb x3 x4 x5)) -∗ K ⟨⟩))
      ⊢ wp frame (wpE (defs₀ (F := F)) Variants.none c none) E (cc0__bio_kernel i arg1 harg1 arg2 harg2 arg3 harg3 arg4 harg4 arg5 harg5 arg6 harg6 arg7 harg7 arg8 harg8 arg9 harg9 arg10 harg10) K := by
  simp only [cc0__bio_kernel_eq_skeleton]; unfold cc0__bio_kernel_skel
  unfold owns
  iintro ⟨⟨%f0, %hf0, H0⟩, ⟨%fa, %hfa, Ha⟩, ⟨%fb, %hfb, Hb⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩, Hk⟩
  subst hf0 hfa hfb hf3 hf4 hf5
  sl_exec
  sl_step
  iapply Hk
  isplitl [H0]
  · iexists f0; isplitr; · ipureintro; rfl
    iexact H0
  isplitl [Ha]
  · iexists fa; isplitr; · ipureintro; rfl
    iexact Ha
  isplitl [Hb]
  · iexists fb; isplitr; · ipureintro; rfl
    iexact Hb
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    exact View.read_writes_eq_canon _ _ _ (cover_tile _)
  isplitl [H8]
  · iexists _; isplitr
    swap; · iexact H8
    ipureintro
    exact View.read_writes_eq_canon _ _ _ (cover_tile _)
  isplitl [H9]
  · iexists _; isplitr
    swap; · iexact H9
    ipureintro
    exact View.read_writes_eq_canon _ _ _ (cover_tile _)
  iexists _; isplitr
  swap; · iexact H10
  ipureintro
  exact View.read_writes_eq_canon _ _ _ (cover_tile _)

end Cert.Kernel.Hand

end
-- ==== Proof.LibFrameShared.lean ====
/-
  A frame run for a pipeline whose INPUT windows may share an array.

  A kernel handed one array through several input windows (a tile of it and two halo blocks of it, say)
  holds that array once, and its windows each hold a share of it. The launch below is the frame run of
  a one-region program for such a pipeline: it takes, in place of the fact that the windows' arrays
  are pairwise distinct, how the buffers behind the arrays — each whole, at the full share, at the
  region-entry contents — are dealt among the windows (`hsplit`), and concludes the same
  post as the frame run for distinct arrays: every window's array at what the write-backs leave, every
  other unscoped buffer as the region found it.

  The region invariant is the core's scoped buffers that are no staging buffer, at some contents
  (`Pipeline.scopedRest`): a body of this kind keeps nothing between points. (The generator
  register is let go at launch, so it cannot be part of the invariant here.)

  To prove `hsplit` for a printed program: list the distinct buffers behind the windows' arrays
  (`bigSep_eq_bigSepL_of_eq` on `Finset.univ.image (arrRef spec)`), open the windows one by one, rewrite
  each whole array's element set to `Finset.univ` (`Memref.IsWhole.set_eq_univ`), and split a shared array's
  full share with `pointsTo_share (PosShare.mem_left_op_right _)`, the proof data's `q` naming each
  window's part.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "𝔻" => Pipeline.defs (fun q => Cfg.toPCfg (Val := Val) (cfgs q)) defs₀

include hinj hw in
/-- THE FRAME RUN of a one-region program whose pipeline's input windows may share arrays: from any
    memory with zero counters every weakly fair execution of @main terminates, and every final state
    has each window's array at what the library computes from the proof data and every other unscoped
    buffer as the region found it. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => (BI.emp : sProp 𝕄)) (Y := fun _ => (BI.emp : sProp 𝕄))
    (Z := fun c => unscopedRest (Ix := Unit) (Name := ℕ) (U := UR sig nD τ) (Lvl := ℕ) (cfgs p).spec c (V c))
    (hX := fun c => by
      iintro HU
      isplitr [HU]; · iempintro
      iexact HU)
    (hin := fun c => by
      rw [hΦ]
      iintro ⟨-, HR⟩; iexact HR)
    (hout := fun c => by
      rw [hΦ]
      iintro HR
      isplitr [HR]; · iempintro
      iexact HR)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

/-- info: 'Idealize.ShloMosaic.Pipeline.θ_run_frame_shared' depends on axioms: [propext, Classical.choice, Quot.sound] -/
#guard_msgs in #print axioms θ_run_frame_shared

end Idealize.ShloMosaic.Pipeline

end
-- ==== Proof.KFrame.lean ====
/-
  The frame of the kernel program: its one region runs to the end at every grid point, faults
  nowhere, and leaves the four argument arrays as they were; and after the run each result array holds,
  block by block, what the body stored at the point that wrote that block.

  The voltage array is handed to the kernel three times — its 64-row tile and the two 8-row halo blocks
  next to the tile — so the three windows on it each hold a share of the one array: the left half, and
  the two halves of the right half. Everything else is as for a kernel whose body loads its input blocks,
  computes, and stores each output block whole.
-/
import proofs.«161542_j59382217834966_1_alg».proof.Proof.KOut
import proofs.«161542_j59382217834966_1_alg».proof.Proof.KBody
import proofs.«161542_j59382217834966_1_alg».proof.Proof.LibFrameShared
import proofs.«161542_j59382217834966_1_alg».proof.Proof.Gen.Kernel.Launch
import proofs.«161542_j59382217834966_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`: the arrays as the region finds them; after the body at point `t` each input's
    buffer at its block and each output's at the body's result on the six input blocks; nothing kept between
    points; nothing owed; of the voltage array the tile's window holds the left half-share and the two halo
    windows the halves of the right half-share, every other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV (grid0.coords t) (iblk m c 0 t) (iblk m c 1 t) (iblk m c 2 t) (iblk m c 3 t) (iblk m c 4 t) (iblk m c 5 t)
    | ⟨7, _⟩ => outS (grid0.coords t) (iblk m c 0 t) (iblk m c 1 t) (iblk m c 2 t) (iblk m c 3 t) (iblk m c 4 t) (iblk m c 5 t)
    | ⟨8, _⟩ => outP (grid0.coords t) (iblk m c 0 t) (iblk m c 1 t) (iblk m c 2 t) (iblk m c 3 t) (iblk m c 4 t) (iblk m c 5 t)
    | ⟨9, _⟩ => outC (grid0.coords t) (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outV (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outS (grid0.coords t) (iblk m c 0 t) (iblk m c 1 t) (iblk m c 2 t) (iblk m c 3 t) (iblk m c 4 t) (iblk m c 5 t) := by dsimp only [dats]
theorem after0_8 (c : Dev nD) (t : Fin cfg0.N) : (dats m 0 c).after 8 t
    = outP (grid0.coords t) (iblk m c 0 t) (iblk m c 1 t) (iblk m c 2 t) (iblk m c 3 t) (iblk m c 4 t) (iblk m c 5 t) := by dsimp only [dats]
theorem after0_9 (c : Dev nD) (t : Fin cfg0.N) : (dats m 0 c).after 9 t
    = outC (grid0.coords t) (iblk m c 0 t) (iblk m c 1 t) (iblk m c 2 t) (iblk m c 3 t) (iblk m c 4 t) (iblk m c 5 t) := by dsimp only [dats]

/-! ## What the body finds in its input blocks -/

/-- Every input window is fetched at every point, so its current buffer holds its block. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)
theorem before0_4 (c : Dev nD) (t : Fin cfg0.N) (d) : (dats m 0 c).before 4 t d = iblk m c 4 t :=
  ((dats m 0 c).before_fetched 4 t (fetch0_4 t) d).trans (by unfold Dat.fetched Dat.blockOf iblk; rw [A_eq]; try rfl)
theorem before0_5 (c : Dev nD) (t : Fin cfg0.N) (d) : (dats m 0 c).before 5 t d = iblk m c 5 t :=
  ((dats m 0 c).before_fetched 5 t (fetch0_5 t) d).trans (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The voltage array dealt among the three windows on it -/

/-- The buffers behind the windows' arrays, each whole at the full share as the region finds it, are the
    windows' arrays at their shares: the voltage array's full share is its left half and the two halves
    of its right half, one for each window on it; every other array belongs to one window. -/
theorem arrays_dealt (c : Dev nD) :
    (Pipeline.arrBufs spec0 c (V m c) : sProp 𝕄) ⊢ (dats m 0 c).arrays ((dats m 0 c).arrAt · 0) := by
  -- the eight distinct buffers behind the ten windows, one by one
  have hbufs (Φ : Ref sig .tc → sProp 𝕄) : bigSep (Finset.univ.image (Pipeline.arrRef spec0)) Φ
      = iprop(Φ main_arg0 ∗ Φ main_arg1 ∗ Φ main_arg2 ∗ Φ main_arg3 ∗ Φ main_v0_0 ∗ Φ main_v0_1 ∗ Φ main_v0_2 ∗ Φ main_v0_3) :=
    bigSep_eq_bigSepL_of_eq [main_arg0, main_arg1, main_arg2, main_arg3, main_v0_0, main_v0_1, main_v0_2, main_v0_3]
      (by decide) (by decide) Φ
  unfold Pipeline.arrBufs Dat.arrays
  rw [bigSep_W0, hbufs]
  -- the three windows on the voltage array name one array: one rewrite serves them
  rw [(arr_whole0 0).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]
  iintro ⟨H0, H1, H2, H3, H4, H5, H6, H7⟩
  ihave ⟨Ha, Hbc⟩ := (pointsTo_share (PosShare.mem_left_op_right fullShare)).1 $$ H0
  ihave ⟨Hb, Hc⟩ := (pointsTo_share (PosShare.mem_left_op_right fullShare.right)).1 $$ Hbc
  isplitl [Ha]; · iexact Ha
  isplitl [Hb]; · iexact Hb
  isplitl [Hc]; · iexact Hc
  isplitl [H1]; · iexact H1
  isplitl [H2]; · iexact H2
  isplitl [H3]; · iexact H3
  isplitl [H4]; · iexact H4
  isplitl [H5]; · iexact H5
  isplitl [H6]; · iexact H6
  iexact H7

/-! ## The run -/

-- the launch theorem's implicit arguments are found by unifying its conclusion with this one, which takes unfolding
-- plain definitions in a metavariable's type
set_option backward.isDefEq.respectTransparency.types false in
/-- THE FRAME RUN: every weakly fair execution of @main ends, nothing faulting, with each window's array at
    what the write-backs leave of the proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_dealt m) (hΦ := fun _ _ => rfl)

/-- THE FRAME: the four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).1 3).trans (((dats m 0 c).arrAt_in 3 rfl _).trans (A_eq m c 3)),
     ((h c).1 4).trans (((dats m 0 c).arrAt_in 4 rfl _).trans (A_eq m c 4)),
     ((h c).1 5).trans (((dats m 0 c).arrAt_in 5 rfl _).trans (A_eq m c 5))⟩) (run_main m ρ)

end Cert.Kernel.Hand

end
-- ==== Proof.KIOut.lean ====
/-
  What the kernel body leaves in each of its four output blocks at a grid point, as a pure function
  of the point and of the six input blocks it was handed: the 64-row tile of the voltage, the two
  8-row halo blocks (of which it reads row 7 of the one above and row 0 of the one below), and the
  tiles of the three ion arrays. Each output block is stored whole by one store.
-/
import proofs.«161542_j59382217834966_1_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- The whole 64 × 4096 tile, as a rectangle of itself. -/
abbrev rTile : Rect S64x4096 := Rect.unit (s := S64x4096) ![0, 0] S64x4096.size inb_S64x4096_S64x4096_0_0
/-- Row 7 of an 8-row halo block. -/
abbrev rLast : Rect S8x4096 := Rect.unit (s := S8x4096) ![7, 0] S1x4096.size inb_S8x4096_S1x4096_7_0
/-- Row 0 of an 8-row halo block. -/
abbrev rFirst : Rect S8x4096 := Rect.unit (s := S8x4096) ![0, 0] S1x4096.size inb_S8x4096_S1x4096_0_0

/-- The scale of the voltage step, the word of 0.1. -/
abbrev stepWord : F .f32 := Scalar.ofBits .f32 0x3DCCCCCD#32

/-- The voltage update of the tile at point `i`: the skeleton's payload over the loaded blocks. -/
def upd (i : grid0.Coords) (x0 : Vec F S64x4096 .f32) (xa xb : Vec F S8x4096 .f32) (x3 x4 x5 : Vec F S64x4096 .f32) :
    FVec F S64x4096 .f32 :=
  k0_pay5 i (View.ld x0 rTile) (View.ld x3 rTile) (View.ld x4 rTile) (View.ld x5 rTile) (View.ld xa rLast) (View.ld xb rFirst)

/-- The four output blocks after the body: one covering store each. -/
def outV (i : grid0.Coords) (x0 : Vec F S64x4096 .f32) (xa xb : Vec F S8x4096 .f32) (x3 x4 x5 : Vec F S64x4096 .f32) : Vec F S64x4096 .f32 :=
  View.canon [⟨rTile, k0_pay1 (View.ld x0 rTile) (upd i x0 xa xb x3 x4 x5) stepWord⟩]
def outS (i : grid0.Coords) (x0 : Vec F S64x4096 .f32) (xa xb : Vec F S8x4096 .f32) (x3 x4 x5 : Vec F S64x4096 .f32) : Vec F S64x4096 .f32 :=
  View.canon [⟨rTile, k0_pay2 (View.ld x0 rTile) (View.ld x3 rTile) (upd i x0 xa xb x3 x4 x5) stepWord⟩]
def outP (i : grid0.Coords) (x0 : Vec F S64x4096 .f32) (xa xb : Vec F S8x4096 .f32) (x3 x4 x5 : Vec F S64x4096 .f32) : Vec F S64x4096 .f32 :=
  View.canon [⟨rTile, k0_pay3 (View.ld x0 rTile) (View.ld x4 rTile) (upd i x0 xa xb x3 x4 x5) stepWord⟩]
def outC (i : grid0.Coords) (x0 : Vec F S64x4096 .f32) (xa xb : Vec F S8x4096 .f32) (x3 x4 x5 : Vec F S64x4096 .f32) : Vec F S64x4096 .f32 :=
  View.canon [⟨rTile, k0_pay4 (View.ld x0 rTile) (View.ld x5 rTile) (upd i x0 xa xb x3 x4 x5) stepWord⟩]

end Cert.KernelIdeal.Hand

end
-- ==== Proof.KIBody.lean ====
/-
  The kernel body's triple: on whole staging memrefs, the six input blocks at contents it only reads
  and the four output blocks at anything, the body runs to its return leaving the inputs as they were
  and each output block at the body's pure result on the inputs (Proof/KIOut.lean). The loads of
  the output blocks that precede their stores read values nothing uses.
-/
import proofs.«161542_j59382217834966_1_alg».proof.Proof.KIOut
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The one whole-tile store covers the block: every index lies in the tile's rectangle. -/
theorem cover_tile (p0 : Vec F S64x4096 .f32) (y : S64x4096.Idx) :
    ∃ pc ∈ ([⟨rTile, p0⟩] : List (View.Piece (Elt F) S64x4096 .f32)), y ∈ pc.1.set :=
  View.cover_of_tiled [⟨rTile, p0⟩] S64x4096.size (by rfl) y

set_option maxHeartbeats 1000000 in
/-- The body at any point `i`, on any whole memrefs. -/
theorem sound_kernel (c : Dev nD) (E : Set ℕ) (i : grid0.Coords) (arg1 : Memref sig .tc .vmem S64x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x4096 .f32) (harg6 : arg6.IsWhole) (arg7 : Memref sig .tc .vmem S64x4096 .f32) (harg7 : arg7.IsWhole) (arg8 : Memref sig .tc .vmem S64x4096 .f32) (harg8 : arg8.IsWhole) (arg9 : Memref sig .tc .vmem S64x4096 .f32) (harg9 : arg9.IsWhole) (arg10 : Memref sig .tc .vmem S64x4096 .f32) (harg10 : arg10.IsWhole)
    (x0 : Vec F S64x4096 .f32) (xa xb : Vec F S8x4096 .f32) (x3 x4 x5 : Vec F S64x4096 .f32) (K : PUnit → sProp 𝕄) :
    iprop(owns (c : Thread nD τ) arg1 fullShare x0 ∗ owns (c : Thread nD τ) arg2 fullShare xa ∗ owns (c : Thread nD τ) arg3 fullShare xb
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare xa ∗ owns (c : Thread nD τ) arg3 fullShare xb
        ∗ owns (c : Thread nD τ) arg4 fullShare x3 ∗ owns (c : Thread nD τ) arg5 fullShare x4 ∗ owns (c : Thread nD τ) arg6 fullShare x5
            ∗ owns (c : Thread nD τ) arg7 fullShare (outV i x0 xa xb x3 x4 x5) ∗ owns (c : Thread nD τ) arg8 fullShare (outS i x0 xa xb x3 x4 x5)
            ∗ owns (c : Thread nD τ) arg9 fullShare (outP i x0 xa xb x3 x4 x5) ∗ owns (c : Thread nD τ) arg10 fullShare (outC i x0 xa xb x3 x4 x5)) -∗ K ⟨⟩))
      ⊢ wp frame (wpE (defs₀ (F := F)) Variants.none c none) E (cc0__bio_kernel i arg1 harg1 arg2 harg2 arg3 harg3 arg4 harg4 arg5 harg5 arg6 harg6 arg7 harg7 arg8 harg8 arg9 harg9 arg10 harg10) K := by
  simp only [cc0__bio_kernel_eq_skeleton]; unfold cc0__bio_kernel_skel
  unfold owns
  iintro ⟨⟨%f0, %hf0, H0⟩, ⟨%fa, %hfa, Ha⟩, ⟨%fb, %hfb, Hb⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩, Hk⟩
  subst hf0 hfa hfb hf3 hf4 hf5
  sl_exec
  sl_step
  iapply Hk
  isplitl [H0]
  · iexists f0; isplitr; · ipureintro; rfl
    iexact H0
  isplitl [Ha]
  · iexists fa; isplitr; · ipureintro; rfl
    iexact Ha
  isplitl [Hb]
  · iexists fb; isplitr; · ipureintro; rfl
    iexact Hb
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    exact View.read_writes_eq_canon _ _ _ (cover_tile _)
  isplitl [H8]
  · iexists _; isplitr
    swap; · iexact H8
    ipureintro
    exact View.read_writes_eq_canon _ _ _ (cover_tile _)
  isplitl [H9]
  · iexists _; isplitr
    swap; · iexact H9
    ipureintro
    exact View.read_writes_eq_canon _ _ _ (cover_tile _)
  iexists _; isplitr
  swap; · iexact H10
  ipureintro
  exact View.read_writes_eq_canon _ _ _ (cover_tile _)

end Cert.KernelIdeal.Hand

end
-- ==== Proof.KIFrame.lean ====
/-
  The frame of the kernel program: its one region runs to the end at every grid point, faults
  nowhere, and leaves the four argument arrays as they were; and after the run each result array holds,
  block by block, what the body stored at the point that wrote that block.

  The voltage array is handed to the kernel three times — its 64-row tile and the two 8-row halo blocks
  next to the tile — so the three windows on it each hold a share of the one array: the left half, and
  the two halves of the right half. Everything else is as for a kernel whose body loads its input blocks,
  computes, and stores each output block whole.
-/
import proofs.«161542_j59382217834966_1_alg».proof.Proof.KIOut
import proofs.«161542_j59382217834966_1_alg».proof.Proof.KIBody
import proofs.«161542_j59382217834966_1_alg».proof.Proof.LibFrameShared
import proofs.«161542_j59382217834966_1_alg».proof.Proof.Gen.KernelIdeal.Launch
import proofs.«161542_j59382217834966_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`: the arrays as the region finds them; after the body at point `t` each input's
    buffer at its block and each output's at the body's result on the six input blocks; nothing kept between
    points; nothing owed; of the voltage array the tile's window holds the left half-share and the two halo
    windows the halves of the right half-share, every other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV (grid0.coords t) (iblk m c 0 t) (iblk m c 1 t) (iblk m c 2 t) (iblk m c 3 t) (iblk m c 4 t) (iblk m c 5 t)
    | ⟨7, _⟩ => outS (grid0.coords t) (iblk m c 0 t) (iblk m c 1 t) (iblk m c 2 t) (iblk m c 3 t) (iblk m c 4 t) (iblk m c 5 t)
    | ⟨8, _⟩ => outP (grid0.coords t) (iblk m c 0 t) (iblk m c 1 t) (iblk m c 2 t) (iblk m c 3 t) (iblk m c 4 t) (iblk m c 5 t)
    | ⟨9, _⟩ => outC (grid0.coords t) (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outV (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outS (grid0.coords t) (iblk m c 0 t) (iblk m c 1 t) (iblk m c 2 t) (iblk m c 3 t) (iblk m c 4 t) (iblk m c 5 t) := by dsimp only [dats]
theorem after0_8 (c : Dev nD) (t : Fin cfg0.N) : (dats m 0 c).after 8 t
    = outP (grid0.coords t) (iblk m c 0 t) (iblk m c 1 t) (iblk m c 2 t) (iblk m c 3 t) (iblk m c 4 t) (iblk m c 5 t) := by dsimp only [dats]
theorem after0_9 (c : Dev nD) (t : Fin cfg0.N) : (dats m 0 c).after 9 t
    = outC (grid0.coords t) (iblk m c 0 t) (iblk m c 1 t) (iblk m c 2 t) (iblk m c 3 t) (iblk m c 4 t) (iblk m c 5 t) := by dsimp only [dats]

/-! ## What the body finds in its input blocks -/

/-- Every input window is fetched at every point, so its current buffer holds its block. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)
theorem before0_4 (c : Dev nD) (t : Fin cfg0.N) (d) : (dats m 0 c).before 4 t d = iblk m c 4 t :=
  ((dats m 0 c).before_fetched 4 t (fetch0_4 t) d).trans (by unfold Dat.fetched Dat.blockOf iblk; rw [A_eq]; try rfl)
theorem before0_5 (c : Dev nD) (t : Fin cfg0.N) (d) : (dats m 0 c).before 5 t d = iblk m c 5 t :=
  ((dats m 0 c).before_fetched 5 t (fetch0_5 t) d).trans (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The voltage array dealt among the three windows on it -/

/-- The buffers behind the windows' arrays, each whole at the full share as the region finds it, are the
    windows' arrays at their shares: the voltage array's full share is its left half and the two halves
    of its right half, one for each window on it; every other array belongs to one window. -/
theorem arrays_dealt (c : Dev nD) :
    (Pipeline.arrBufs spec0 c (V m c) : sProp 𝕄) ⊢ (dats m 0 c).arrays ((dats m 0 c).arrAt · 0) := by
  -- the eight distinct buffers behind the ten windows, one by one
  have hbufs (Φ : Ref sig .tc → sProp 𝕄) : bigSep (Finset.univ.image (Pipeline.arrRef spec0)) Φ
      = iprop(Φ main_arg0 ∗ Φ main_arg1 ∗ Φ main_arg2 ∗ Φ main_arg3 ∗ Φ main_v0_0 ∗ Φ main_v0_1 ∗ Φ main_v0_2 ∗ Φ main_v0_3) :=
    bigSep_eq_bigSepL_of_eq [main_arg0, main_arg1, main_arg2, main_arg3, main_v0_0, main_v0_1, main_v0_2, main_v0_3]
      (by decide) (by decide) Φ
  unfold Pipeline.arrBufs Dat.arrays
  rw [bigSep_W0, hbufs]
  -- the three windows on the voltage array name one array: one rewrite serves them
  rw [(arr_whole0 0).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]
  iintro ⟨H0, H1, H2, H3, H4, H5, H6, H7⟩
  ihave ⟨Ha, Hbc⟩ := (pointsTo_share (PosShare.mem_left_op_right fullShare)).1 $$ H0
  ihave ⟨Hb, Hc⟩ := (pointsTo_share (PosShare.mem_left_op_right fullShare.right)).1 $$ Hbc
  isplitl [Ha]; · iexact Ha
  isplitl [Hb]; · iexact Hb
  isplitl [Hc]; · iexact Hc
  isplitl [H1]; · iexact H1
  isplitl [H2]; · iexact H2
  isplitl [H3]; · iexact H3
  isplitl [H4]; · iexact H4
  isplitl [H5]; · iexact H5
  isplitl [H6]; · iexact H6
  iexact H7

/-! ## The run -/

-- the launch theorem's implicit arguments are found by unifying its conclusion with this one, which takes unfolding
-- plain definitions in a metavariable's type
set_option backward.isDefEq.respectTransparency.types false in
/-- THE FRAME RUN: every weakly fair execution of @main ends, nothing faulting, with each window's array at
    what the write-backs leave of the proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_dealt m) (hΦ := fun _ _ => rfl)

/-- THE FRAME: the four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).1 3).trans (((dats m 0 c).arrAt_in 3 rfl _).trans (A_eq m c 3)),
     ((h c).1 4).trans (((dats m 0 c).arrAt_in 4 rfl _).trans (A_eq m c 4)),
     ((h c).1 5).trans (((dats m 0 c).arrAt_in 5 rfl _).trans (A_eq m c 5))⟩) (run_main m ρ)

end Cert.KernelIdeal.Hand

end
-- ==== Proof.Spec.lean ====
/-
  The mathematics both programs compute, index by index over the extended reals.

  On a 4096 × 4096 grid `v`, the five-point Laplacian with REFLECTED edges (the neighbour of an edge
  cell across the edge is the cell one step inside: row -1 is row 1, row 4096 is row 4094, and the
  same for columns),
      lap v (r, c) = v (r+1, c) + v (r-1, c) + v (r, c+1) + v (r, c-1) - 4 · v (r, c),
  summed in that order, then
      u  = 1/2 · lap v + a · s - b · p + g · c,
      v' = tanh (v + a · u),
      s' = s · d + b · max v' 0,   p' = p · d + b · max (0 - v') 0,   c' = c · d + b · |v'|,
  where `a, b, g, d` are the float words the programs carry (the binary values of 0.1, 0.05, 0.08,
  0.95). Nothing here is evaluated: the same words stand on both sides.
-/
import Idealize.ShloMosaic.PureOps.Ideal
import Idealize.ShloMosaic.Lib.ValueIdx

noncomputable section

namespace Cert.Spec

open Idealize.ShloMosaic Idealize.ShloMosaic.ValueIdx

/-- A 4096 × 4096 array of extended reals. -/
abbrev Arr : Type := (⟨2, ![4096, 4096]⟩ : Shape).Idx → EReal

/-- The neighbour one step towards index 0, reflected at the edge: 0 ↦ 1. -/
def prev (r : Fin 4096) : Fin 4096 := if r.val = 0 then ⟨1, by decide⟩ else ⟨r.val - 1, by omega⟩
/-- The neighbour one step towards index 4095, reflected at the edge: 4095 ↦ 4094. -/
def next (r : Fin 4096) : Fin 4096 := if h : r.val = 4095 then ⟨4094, by decide⟩ else ⟨r.val + 1, by omega⟩

theorem prev_val (r : Fin 4096) : (prev r).val = if r.val = 0 then 1 else r.val - 1 := by
  unfold prev; split <;> rfl
theorem next_val (r : Fin 4096) : (next r).val = if r.val = 4095 then 4094 else r.val + 1 := by
  unfold next; split <;> rfl

/-- The float words of the update, read at the ideal instance. -/
def w4 : EReal := Ideal.ofBits .f32 0x40800000#32
def wHalf : EReal := Ideal.ofBits .f32 0x3F000000#32
def wA : EReal := Ideal.ofBits .f32 0x3DCCCCCD#32
def wB : EReal := Ideal.ofBits .f32 0x3D4CCCCD#32
def wG : EReal := Ideal.ofBits .f32 0x3DA3D70A#32
def wD : EReal := Ideal.ofBits .f32 0x3F733333#32
def w0 : EReal := Ideal.ofBits .f32 0x00000000#32

/-- The new voltage of one cell from its four neighbours (south, north, east, west), itself and the
    three ion concentrations. -/
def cell (vS vN vE vW v s p c : EReal) : EReal :=
  Ideal.tanh (v + wA * (wHalf * (vS + vN + vE + vW - w4 * v) + wA * s - wB * p + wG * c))

/-- The new voltage array. -/
def nv (v s p c : Arr) : Arr := fun i =>
  cell (v (ix2 (next (i 0)) (i 1))) (v (ix2 (prev (i 0)) (i 1))) (v (ix2 (i 0) (next (i 1)))) (v (ix2 (i 0) (prev (i 1))))
    (v i) (s i) (p i) (c i)

/-- The new sodium, potassium and calcium arrays. -/
def ns (v s p c : Arr) : Arr := fun i => s i * wD + wB * max (nv v s p c i) w0
def np (v s p c : Arr) : Arr := fun i => p i * wD + wB * max (w0 - nv v s p c i) w0
def nc (v s p c : Arr) : Arr := fun i => c i * wD + wB * FloatOps.absf (F := Ideal) (φ := .f32) (nv v s p c i)

end Cert.Spec

end
-- ==== Proof.KICell.lean ====
/-
  The specification at the scale of one tile. At grid point `i` (tile rows 64 i … 64 i + 63) the
  new voltage of the tile's cell (r, q) is the specification's cell of: its south neighbour — row r + 1
  of the tile, or in the tile's last row, row 0 of the halo block below, or row 62 of the tile itself in
  the grid's last tile (the reflected edge); its north neighbour — row r - 1 of the tile, or in the
  tile's first row, row 7 of the halo block above, or row 1 of the tile itself in the grid's first tile;
  and its east and west neighbours within the tile's row, reflected at columns 4095 and 0.
-/
import proofs.«161542_j59382217834966_1_alg».proof.Proof.Spec

noncomputable section

namespace Cert.Spec

open Idealize.ShloMosaic Idealize.ShloMosaic.ValueIdx

/-- A 64 × 4096 tile and an 8 × 4096 halo block of extended reals. -/
abbrev Tile : Type := (⟨2, ![64, 4096]⟩ : Shape).Idx → EReal
abbrev Halo : Type := (⟨2, ![8, 4096]⟩ : Shape).Idx → EReal

/-- The north neighbour of the tile's cell (r, q) at grid point `t`. -/
def northT (t : Nat) (x0 : Tile) (xa : Halo) (r : Fin 64) (q : Fin 4096) : EReal :=
  if r.val = 0 then (if t = 0 then x0 (ix2 (1 : Fin 64) q) else xa (ix2 (7 : Fin 8) q))
  else x0 (ix2 (⟨r.val - 1, by omega⟩ : Fin 64) q)
/-- The south neighbour. -/
def southT (t : Nat) (x0 : Tile) (xb : Halo) (r : Fin 64) (q : Fin 4096) : EReal :=
  if h : r.val = 63 then (if t = 63 then x0 (ix2 (62 : Fin 64) q) else xb (ix2 (0 : Fin 8) q))
  else x0 (ix2 (⟨r.val + 1, by omega⟩ : Fin 64) q)

/-- The tile's new voltage. -/
def tileV (t : Nat) (x0 : Tile) (xa xb : Halo) (x3 x4 x5 : Tile) : Tile := fun j =>
  cell (southT t x0 xb (j 0) (j 1)) (northT t x0 xa (j 0) (j 1)) (x0 (ix2 (j 0) (next (j 1)))) (x0 (ix2 (j 0) (prev (j 1))))
    (x0 j) (x3 j) (x4 j) (x5 j)
/-- The tile's new sodium, potassium, calcium. -/
def tileS (t : Nat) (x0 : Tile) (xa xb : Halo) (x3 x4 x5 : Tile) : Tile := fun j => x3 j * wD + wB * max (tileV t x0 xa xb x3 x4 x5 j) w0
def tileP (t : Nat) (x0 : Tile) (xa xb : Halo) (x3 x4 x5 : Tile) : Tile := fun j => x4 j * wD + wB * max (w0 - tileV t x0 xa xb x3 x4 x5 j) w0
def tileC (t : Nat) (x0 : Tile) (xa xb : Halo) (x3 x4 x5 : Tile) : Tile := fun j =>
  x5 j * wD + wB * FloatOps.absf (F := Ideal) (φ := .f32) (tileV t x0 xa xb x3 x4 x5 j)

end Cert.Spec

end
-- ==== Proof.KIPay.lean ====
/-
  The body's four results on a tile, read cell by cell at the ideal instance, are the specification's
  tile (Proof/KICell.lean): the two row-concatenations put the selected halo row before (after) the
  tile's rows shifted down (up) by one, the two column-concatenations shift the tile's columns with the
  edge column reflected, and everything after that is pointwise.
-/
import proofs.«161542_j59382217834966_1_alg».proof.Proof.KIOut
import proofs.«161542_j59382217834966_1_alg».proof.Proof.KICell
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

namespace Pay

/-- A select on the equality of two small coordinates is the `if` on them. -/
theorem select_coord {α : Type} (t c : Nat) (ht : t < 64) (hc : c < 64) (A B : α) :
    Scalar.select (Scalar.cmpi .eq (BitVec.ofNat 32 t) (BitVec.ofNat 32 c)) A B = if t = c then A else B := by
  show (if BitVec.ofBool (BitVec.ofNat 32 t == BitVec.ofNat 32 c) = 1#1 then A else B) = _
  by_cases h : t = c
  · subst h; simp
  · have hne : BitVec.ofNat 32 t ≠ BitVec.ofNat 32 c := fun e => h (by
      have := congrArg BitVec.toNat e
      simp only [BitVec.toNat_ofNat] at this
      omega)
    have hb : (BitVec.ofNat 32 t == BitVec.ofNat 32 c) = false := beq_eq_false_iff_ne.mpr hne
    rw [hb, if_neg h]
    exact if_neg (by decide)

/-- The west neighbour: the tile's columns shifted right by one, column 1 reflected into column 0. -/
theorem west_apply (x0 : Vec Ideal S64x4096 .f32) (r : Fin 64) (q : Fin 4096) :
    concatenate S64x4096 1 [⟨S64x1, extractStridedSlice S64x1 ![0, 1] x0 slices_S64x4096_o0_1_S64x1⟩,
      ⟨S64x4095, extractStridedSlice S64x4095 ![0, 0] x0 slices_S64x4096_o0_0_S64x4095⟩]
      concatenates_S64x1_S64x4095_S64x4096_d1 (ix2 r q) = x0 (ix2 r (Cert.Spec.prev q)) := by
  have hp := Cert.Spec.prev_val q
  by_cases hq : q.val = 0
  · rw [if_pos hq] at hp
    refine Eq.trans (concatenate_pair_apply_left (t := S64x4096) (s₁ := S64x1) (s₂ := S64x4095) 1 _ _
      concatenates_S64x1_S64x4095_S64x4096_d1 (ix2 r q) rfl (ix2 r (0 : Fin 1)) ?_) ?_
    · intro b
      match b with
      | ⟨0, _⟩ => rfl
      | ⟨1, _⟩ => exact hq.symm
    · exact slice2_axis1_apply 1 x0 _ r (0 : Fin 1) (Cert.Spec.prev q) (by rw [hp]; rfl)
  · rw [if_neg hq] at hp
    refine Eq.trans (concatenate_pair_apply_right (t := S64x4096) (s₁ := S64x1) (s₂ := S64x4095) 1 _ _
      concatenates_S64x1_S64x4095_S64x4096_d1 (ix2 r q) rfl rfl (ix2 r (⟨q.val - 1, by omega⟩ : Fin 4095)) ?_ ?_) ?_
    · intro b hb
      match b with
      | ⟨0, _⟩ => rfl
      | ⟨1, _⟩ => exact absurd rfl hb
    · show q.val - 1 + 1 = q.val; omega
    · exact slice2_axis1_apply 0 x0 _ r (⟨q.val - 1, by omega⟩ : Fin 4095) (Cert.Spec.prev q) (by rw [hp]; show q.val - 1 = 0 + (q.val - 1); omega)

/-- The east neighbour: the tile's columns shifted left by one, column 4094 reflected into column 4095. -/
theorem east_apply (x0 : Vec Ideal S64x4096 .f32) (r : Fin 64) (q : Fin 4096) :
    concatenate S64x4096 1 [⟨S64x4095, extractStridedSlice S64x4095 ![0, 1] x0 slices_S64x4096_o0_1_S64x4095⟩,
      ⟨S64x1, extractStridedSlice S64x1 ![0, 4094] x0 slices_S64x4096_o0_4094_S64x1⟩]
      concatenates_S64x4095_S64x1_S64x4096_d1 (ix2 r q) = x0 (ix2 r (Cert.Spec.next q)) := by
  have hp := Cert.Spec.next_val q
  by_cases hq : q.val = 4095
  · rw [if_pos hq] at hp
    refine Eq.trans (concatenate_pair_apply_right (t := S64x4096) (s₁ := S64x4095) (s₂ := S64x1) 1 _ _
      concatenates_S64x4095_S64x1_S64x4096_d1 (ix2 r q) rfl rfl (ix2 r (0 : Fin 1)) ?_ ?_) ?_
    · intro b hb
      match b with
      | ⟨0, _⟩ => rfl
      | ⟨1, _⟩ => exact absurd rfl hb
    · show 0 + 4095 = q.val; omega
    · exact slice2_axis1_apply 4094 x0 _ r (0 : Fin 1) (Cert.Spec.next q) (by rw [hp]; rfl)
  · rw [if_neg hq] at hp
    have hlt : q.val < 4095 := by have := q.isLt; omega
    refine Eq.trans (concatenate_pair_apply_left (t := S64x4096) (s₁ := S64x4095) (s₂ := S64x1) 1 _ _
      concatenates_S64x4095_S64x1_S64x4096_d1 (ix2 r q) rfl (ix2 r (⟨q.val, hlt⟩ : Fin 4095)) ?_) ?_
    · intro b
      match b with
      | ⟨0, _⟩ => rfl
      | ⟨1, _⟩ => rfl
    · exact slice2_axis1_apply 1 x0 _ r (⟨q.val, hlt⟩ : Fin 4095) (Cert.Spec.next q) (by rw [hp]; show q.val + 1 = 1 + q.val; omega)

/-- Row 7 of the halo block above, read through its one-row rectangle. -/
theorem ld_last (xa : Vec Ideal S8x4096 .f32) (q : Fin 4096) :
    View.ld xa rLast (ix2 (0 : Fin 1) q) = xa (ix2 (7 : Fin 8) q) := by
  show xa _ = xa _
  congr 1; funext a
  match a with
  | ⟨0, _⟩ => exact Fin.ext rfl
  | ⟨1, _⟩ => exact Fin.ext (by show 0 + 1 * q.val = q.val; omega)

/-- Row 0 of the halo block below, read through its one-row rectangle. -/
theorem ld_first (xb : Vec Ideal S8x4096 .f32) (q : Fin 4096) :
    View.ld xb rFirst (ix2 (0 : Fin 1) q) = xb (ix2 (0 : Fin 8) q) := by
  show xb _ = xb _
  congr 1; funext a
  match a with
  | ⟨0, _⟩ => exact Fin.ext rfl
  | ⟨1, _⟩ => exact Fin.ext (by show 0 + 1 * q.val = q.val; omega)

/-- The north neighbour: the selected row (row 1 of the tile at the grid's first point, else the halo row) before the
    tile's rows shifted down by one. -/
theorem north_apply (t : Nat) (ht : t < 64) (x0 : Vec Ideal S64x4096 .f32) (v6 : Vec Ideal S1x4096 .f32) (r : Fin 64) (q : Fin 4096) :
    concatenate S64x4096 0 [⟨S1x4096, Scalar.select (Scalar.cmpi .eq (BitVec.ofNat 32 t) 0#32)
        (extractStridedSlice S1x4096 ![1, 0] x0 slices_S64x4096_o1_0_S1x4096) v6⟩,
      ⟨S63x4096, extractStridedSlice S63x4096 ![0, 0] x0 slices_S64x4096_o0_0_S63x4096⟩]
      concatenates_S1x4096_S63x4096_S64x4096_d0 (ix2 r q) =
    if r.val = 0 then (if t = 0 then x0 (ix2 (1 : Fin 64) q) else v6 (ix2 (0 : Fin 1) q))
    else x0 (ix2 (⟨r.val - 1, by omega⟩ : Fin 64) q) := by
  by_cases hr : r.val = 0
  · rw [if_pos hr]
    refine Eq.trans (concatenate_pair_apply_left (t := S64x4096) (s₁ := S1x4096) (s₂ := S63x4096) 0 _ _
      concatenates_S1x4096_S63x4096_S64x4096_d0 (ix2 r q) rfl (ix2 (0 : Fin 1) q) ?_) ?_
    · intro b
      match b with
      | ⟨0, _⟩ => exact hr.symm
      | ⟨1, _⟩ => rfl
    · rw [select_coord t 0 ht (by decide)]
      by_cases h0 : t = 0
      · rw [if_pos h0, if_pos h0]
        exact slice2_axis0_apply 1 x0 _ (0 : Fin 1) q (1 : Fin 64) rfl
      · rw [if_neg h0, if_neg h0]
  · rw [if_neg hr]
    refine Eq.trans (concatenate_pair_apply_right (t := S64x4096) (s₁ := S1x4096) (s₂ := S63x4096) 0 _ _
      concatenates_S1x4096_S63x4096_S64x4096_d0 (ix2 r q) rfl rfl (ix2 (⟨r.val - 1, by omega⟩ : Fin 63) q) ?_ ?_) ?_
    · intro b hb
      match b with
      | ⟨0, _⟩ => exact absurd rfl hb
      | ⟨1, _⟩ => rfl
    · show r.val - 1 + 1 = r.val; omega
    · exact slice2_axis0_apply 0 x0 _ (⟨r.val - 1, by omega⟩ : Fin 63) q (⟨r.val - 1, by omega⟩ : Fin 64)
        (by show r.val - 1 = 0 + (r.val - 1); omega)

/-- The south neighbour: the tile's rows shifted up by one before the selected row (row 62 of the tile at the grid's last
    point, else the halo row). -/
theorem south_apply (t : Nat) (ht : t < 64) (x0 : Vec Ideal S64x4096 .f32) (v12 : Vec Ideal S1x4096 .f32) (r : Fin 64) (q : Fin 4096) :
    concatenate S64x4096 0 [⟨S63x4096, extractStridedSlice S63x4096 ![1, 0] x0 slices_S64x4096_o1_0_S63x4096⟩,
      ⟨S1x4096, Scalar.select (Scalar.cmpi .eq (BitVec.ofNat 32 t) 63#32)
        (extractStridedSlice S1x4096 ![62, 0] x0 slices_S64x4096_o62_0_S1x4096) v12⟩]
      concatenates_S63x4096_S1x4096_S64x4096_d0 (ix2 r q) =
    if h : r.val = 63 then (if t = 63 then x0 (ix2 (62 : Fin 64) q) else v12 (ix2 (0 : Fin 1) q))
    else x0 (ix2 (⟨r.val + 1, by omega⟩ : Fin 64) q) := by
  by_cases hr : r.val = 63
  · rw [dif_pos hr]
    refine Eq.trans (concatenate_pair_apply_right (t := S64x4096) (s₁ := S63x4096) (s₂ := S1x4096) 0 _ _
      concatenates_S63x4096_S1x4096_S64x4096_d0 (ix2 r q) rfl rfl (ix2 (0 : Fin 1) q) ?_ ?_) ?_
    · intro b hb
      match b with
      | ⟨0, _⟩ => exact absurd rfl hb
      | ⟨1, _⟩ => rfl
    · show 0 + 63 = r.val; omega
    · rw [select_coord t 63 ht (by decide)]
      by_cases h0 : t = 63
      · rw [if_pos h0, if_pos h0]
        exact slice2_axis0_apply 62 x0 _ (0 : Fin 1) q (62 : Fin 64) rfl
      · rw [if_neg h0, if_neg h0]
  · rw [dif_neg hr]
    have hlt : r.val < 63 := by have := r.isLt; omega
    refine Eq.trans (concatenate_pair_apply_left (t := S64x4096) (s₁ := S63x4096) (s₂ := S1x4096) 0 _ _
      concatenates_S63x4096_S1x4096_S64x4096_d0 (ix2 r q) rfl (ix2 (⟨r.val, hlt⟩ : Fin 63) q) ?_) ?_
    · intro b
      match b with
      | ⟨0, _⟩ => rfl
      | ⟨1, _⟩ => rfl
    · exact slice2_axis0_apply 1 x0 _ (⟨r.val, hlt⟩ : Fin 63) q (⟨r.val + 1, by omega⟩ : Fin 64)
        (by show r.val + 1 = 1 + r.val; omega)

/-- The zero offsets, however spelt. -/
theorem hz : (![0, 0] : Fin 2 → Nat) = fun _ => 0 := by funext a; fin_cases a <;> rfl

/-- A load of the whole tile reads the tile. -/
theorem ld_tile (x : Vec Ideal S64x4096 .f32) : View.ld x rTile = x :=
  View.ld_unit_zero (S := S64x4096) hz inb_S64x4096_S64x4096_0_0 x

/-- The voltage update of the tile's cell (r, q): half the five-point Laplacian with reflected edges plus the three
    ion terms. -/
theorem upd_apply (i : grid0.Coords) (x0 : Vec Ideal S64x4096 .f32) (xa xb : Vec Ideal S8x4096 .f32) (x3 x4 x5 : Vec Ideal S64x4096 .f32)
    (r : Fin 64) (q : Fin 4096) :
    upd (F := Ideal) i x0 xa xb x3 x4 x5 (ix2 r q) =
      Cert.Spec.wHalf * (Cert.Spec.southT (i 0).val x0 xb r q + Cert.Spec.northT (i 0).val x0 xa r q
          + x0 (ix2 r (Cert.Spec.next q)) + x0 (ix2 r (Cert.Spec.prev q)) - Cert.Spec.w4 * x0 (ix2 r q))
        + Cert.Spec.wA * x3 (ix2 r q) - Cert.Spec.wB * x4 (ix2 r q) + Cert.Spec.wG * x5 (ix2 r q) := by
  have ht : (i 0).val < 64 := (i 0).isLt
  unfold upd
  rw [ld_tile x0, ld_tile x3, ld_tile x4, ld_tile x5]
  unfold k0_pay5
  simp only [addf_apply, subf_apply, mulf_apply, broadcast_apply]
  rw [north_apply _ ht, south_apply _ ht, east_apply, west_apply, ld_last, ld_first]
  rfl

/-- The new voltage of the tile's cell (r, q). -/
theorem payV_apply (i : grid0.Coords) (x0 : Vec Ideal S64x4096 .f32) (xa xb : Vec Ideal S8x4096 .f32) (x3 x4 x5 : Vec Ideal S64x4096 .f32)
    (r : Fin 64) (q : Fin 4096) :
    k0_pay1 x0 (upd (F := Ideal) i x0 xa xb x3 x4 x5) stepWord (ix2 r q) = Cert.Spec.tileV (i 0).val x0 xa xb x3 x4 x5 (ix2 r q) := by
  show Ideal.tanh (x0 (ix2 r q) + Cert.Spec.wA * upd (F := Ideal) i x0 xa xb x3 x4 x5 (ix2 r q)) = _
  rw [upd_apply]
  rfl

end Pay

open Pay

theorem outV_eq (i : grid0.Coords) (x0 : Vec Ideal S64x4096 .f32) (xa xb : Vec Ideal S8x4096 .f32) (x3 x4 x5 : Vec Ideal S64x4096 .f32) :
    outV (F := Ideal) i x0 xa xb x3 x4 x5 = Cert.Spec.tileV (i 0).val x0 xa xb x3 x4 x5 := by
  funext j
  obtain ⟨r, q, rfl⟩ : ∃ (r : Fin 64) (q : Fin 4096), j = ix2 r q := ⟨j 0, j 1, eq_ix2 j⟩
  unfold outV
  rw [View.canon_unit_zero (S := S64x4096) hz inb_S64x4096_S64x4096_0_0, ld_tile x0]
  exact payV_apply i x0 xa xb x3 x4 x5 r q
theorem outS_eq (i : grid0.Coords) (x0 : Vec Ideal S64x4096 .f32) (xa xb : Vec Ideal S8x4096 .f32) (x3 x4 x5 : Vec Ideal S64x4096 .f32) :
    outS (F := Ideal) i x0 xa xb x3 x4 x5 = Cert.Spec.tileS (i 0).val x0 xa xb x3 x4 x5 := by
  funext j
  obtain ⟨r, q, rfl⟩ : ∃ (r : Fin 64) (q : Fin 4096), j = ix2 r q := ⟨j 0, j 1, eq_ix2 j⟩
  unfold outS
  rw [View.canon_unit_zero (S := S64x4096) hz inb_S64x4096_S64x4096_0_0, ld_tile x0, ld_tile x3]
  show x3 (ix2 r q) * Cert.Spec.wD + Cert.Spec.wB * max (k0_pay1 x0 (upd (F := Ideal) i x0 xa xb x3 x4 x5) stepWord (ix2 r q)) Cert.Spec.w0 = _
  rw [payV_apply]
  rfl
theorem outP_eq (i : grid0.Coords) (x0 : Vec Ideal S64x4096 .f32) (xa xb : Vec Ideal S8x4096 .f32) (x3 x4 x5 : Vec Ideal S64x4096 .f32) :
    outP (F := Ideal) i x0 xa xb x3 x4 x5 = Cert.Spec.tileP (i 0).val x0 xa xb x3 x4 x5 := by
  funext j
  obtain ⟨r, q, rfl⟩ : ∃ (r : Fin 64) (q : Fin 4096), j = ix2 r q := ⟨j 0, j 1, eq_ix2 j⟩
  unfold outP
  rw [View.canon_unit_zero (S := S64x4096) hz inb_S64x4096_S64x4096_0_0, ld_tile x0, ld_tile x4]
  show x4 (ix2 r q) * Cert.Spec.wD + Cert.Spec.wB * max (Cert.Spec.w0 - k0_pay1 x0 (upd (F := Ideal) i x0 xa xb x3 x4 x5) stepWord (ix2 r q)) Cert.Spec.w0 = _
  rw [payV_apply]
  rfl
theorem outC_eq (i : grid0.Coords) (x0 : Vec Ideal S64x4096 .f32) (xa xb : Vec Ideal S8x4096 .f32) (x3 x4 x5 : Vec Ideal S64x4096 .f32) :
    outC (F := Ideal) i x0 xa xb x3 x4 x5 = Cert.Spec.tileC (i 0).val x0 xa xb x3 x4 x5 := by
  funext j
  obtain ⟨r, q, rfl⟩ : ∃ (r : Fin 64) (q : Fin 4096), j = ix2 r q := ⟨j 0, j 1, eq_ix2 j⟩
  unfold outC
  rw [View.canon_unit_zero (S := S64x4096) hz inb_S64x4096_S64x4096_0_0, ld_tile x0, ld_tile x5]
  show x5 (ix2 r q) * Cert.Spec.wD + Cert.Spec.wB * FloatOps.absf (F := Ideal) (φ := .f32) (k0_pay1 x0 (upd (F := Ideal) i x0 xa xb x3 x4 x5) stepWord (ix2 r q)) = _
  rw [payV_apply]
  rfl

end Cert.KernelIdeal.Hand

end
-- ==== Proof.KIValue.lean ====
/-
  The idealized kernel's results: after the run each of the four result arrays is the specification's
  array of the four argument arrays. Block `t` of a result array is what the body stored at point
  `t`; the blocks are the 64-row tiles, which cover the array; and the body's value at a cell of the
  tile is the specification's cell — its north and south neighbours read from the tile itself, or, in
  the tile's first and last row, from the halo blocks (or reflected, in the grid's first and last tile).
-/
import proofs.«161542_j59382217834966_1_alg».proof.Proof.KIFrame
import proofs.«161542_j59382217834966_1_alg».proof.Proof.Spec
import proofs.«161542_j59382217834966_1_alg».proof.Proof.KICell
import proofs.«161542_j59382217834966_1_alg».proof.Proof.KIPay
import Idealize.ShloMosaic.Lib.Pipeline.Value
import Idealize.ShloMosaic.Lib.ValueIdx

noncomputable section

namespace Cert.KernelIdeal.Hand

open Idealize.ShloMosaic Idealize.ShloMosaic.TcCoe Idealize.SL.Sem
open Cert.KernelIdeal Cert.KernelIdeal.Gen

namespace Tiles

open Idealize.ShloMosaic.ValueIdx Cert.Spec

/-! ## A tile's cell as the array's cell

  A block of rows sits in its array at a row offset: the tile of grid point `t` at row `64 t`, the
  8-row block number `b` at row `8 b`. Where the blocks the body was handed sit as the index maps
  say, the tile's specification at the tile's cell (r, q) is the array's specification at the array's
  cell (64 t + r, q). -/

/-- The 64-row tile `x` is rows `64 t … 64 t + 63` of the array `a`. -/
def TileAt (t : Nat) (x : Tile) (a : Arr) : Prop :=
  ∀ (j : (⟨2, ![64, 4096]⟩ : Shape).Idx) (i : (⟨2, ![4096, 4096]⟩ : Shape).Idx),
    (i 0).val = 64 * t + (j 0).val → (i 1).val = (j 1).val → x j = a i

/-- The 8-row block `x` is rows `8 b … 8 b + 7` of the array `a`. -/
def HaloAt (b : Nat) (x : Halo) (a : Arr) : Prop :=
  ∀ (j : (⟨2, ![8, 4096]⟩ : Shape).Idx) (i : (⟨2, ![4096, 4096]⟩ : Shape).Idx),
    (i 0).val = 8 * b + (j 0).val → (i 1).val = (j 1).val → x j = a i

/-- The six blocks of grid point `t` as they sit in the four arrays: the voltage tile, the 8-row block
    above it (number `8 t - 1`, or 0 at the first point), the 8-row block below it (number `8 t + 8`,
    or 511 at the last point), and the three ion tiles. -/
structure BlocksAt (t : Nat) (v s p c : Arr) (x0 : Tile) (xa xb : Halo) (x3 x4 x5 : Tile) : Prop where
  lt : t < 64
  h0 : TileAt t x0 v
  ha : HaloAt (8 * t - 1) xa v
  hb : HaloAt (min (8 * t + 8) 511) xb v
  h3 : TileAt t x3 s
  h4 : TileAt t x4 p
  h5 : TileAt t x5 c

/-- The south neighbour of the tile's cell is the array's: the next row of the tile; in the tile's last
    row, row 0 of the block below, which is array row `64 t + 64`; in the last tile, the reflected row 4094. -/
theorem south_eq {t : Nat} {v : Arr} {x0 : Tile} {xb : Halo} (ht : t < 64) (h0 : TileAt t x0 v)
    (hb : HaloAt (min (8 * t + 8) 511) xb v)
    (j : (⟨2, ![64, 4096]⟩ : Shape).Idx) (i : (⟨2, ![4096, 4096]⟩ : Shape).Idx)
    (hi0 : (i 0).val = 64 * t + (j 0).val) (hi1 : (i 1).val = (j 1).val) :
    southT t x0 xb (j 0) (j 1) = v (ix2 (next (i 0)) (i 1)) := by
  have hj0 : (j 0).val < 64 := idx2_lt0 j
  have hn := next_val (i 0)
  unfold southT
  split
  · rename_i hr
    split
    · rename_i ht63
      refine h0 _ _ ?_ ?_
      · show (next (i 0)).val = 64 * t + 62
        rw [hn]; split <;> omega
      · exact hi1
    · rename_i ht63
      refine hb _ _ ?_ ?_
      · show (next (i 0)).val = 8 * min (8 * t + 8) 511 + 0
        rw [hn]; split <;> omega
      · exact hi1
  · rename_i hr
    refine h0 _ _ ?_ ?_
    · show (next (i 0)).val = 64 * t + ((j 0).val + 1)
      rw [hn]; split <;> omega
    · exact hi1

/-- The north neighbour likewise: the previous row of the tile; in the tile's first row, row 7 of the
    block above, which is array row `8 (8 t - 1) + 7 = 64 t - 1`; in the first tile, the reflected row 1. -/
theorem north_eq {t : Nat} {v : Arr} {x0 : Tile} {xa : Halo} (ht : t < 64) (h0 : TileAt t x0 v)
    (ha : HaloAt (8 * t - 1) xa v)
    (j : (⟨2, ![64, 4096]⟩ : Shape).Idx) (i : (⟨2, ![4096, 4096]⟩ : Shape).Idx)
    (hi0 : (i 0).val = 64 * t + (j 0).val) (hi1 : (i 1).val = (j 1).val) :
    northT t x0 xa (j 0) (j 1) = v (ix2 (prev (i 0)) (i 1)) := by
  have hj0 : (j 0).val < 64 := idx2_lt0 j
  have hp := prev_val (i 0)
  unfold northT
  split
  · rename_i hr
    split
    · rename_i ht0
      refine h0 _ _ ?_ ?_
      · show (prev (i 0)).val = 64 * t + 1
        rw [hp]; split <;> omega
      · exact hi1
    · rename_i ht0
      refine ha _ _ ?_ ?_
      · show (prev (i 0)).val = 8 * (8 * t - 1) + 7
        rw [hp]; split <;> omega
      · exact hi1
  · rename_i hr
    refine h0 _ _ ?_ ?_
    · show (prev (i 0)).val = 64 * t + ((j 0).val - 1)
      rw [hp]; split <;> omega
    · exact hi1

/-- The tile's new voltage at the tile's cell is the array's new voltage at the array's cell. -/
theorem tileV_at {t : Nat} {v s p c : Arr} {x0 : Tile} {xa xb : Halo} {x3 x4 x5 : Tile}
    (h : BlocksAt t v s p c x0 xa xb x3 x4 x5)
    (j : (⟨2, ![64, 4096]⟩ : Shape).Idx) (i : (⟨2, ![4096, 4096]⟩ : Shape).Idx)
    (hi0 : (i 0).val = 64 * t + (j 0).val) (hi1 : (i 1).val = (j 1).val) :
    tileV t x0 xa xb x3 x4 x5 j = nv v s p c i := by
  have hE : x0 (ix2 (j 0) (next (j 1))) = v (ix2 (i 0) (next (i 1))) :=
    h.h0 _ _ hi0 (congrArg (fun r : Fin 4096 => (next r).val) (Fin.ext hi1))
  have hW : x0 (ix2 (j 0) (prev (j 1))) = v (ix2 (i 0) (prev (i 1))) :=
    h.h0 _ _ hi0 (congrArg (fun r : Fin 4096 => (prev r).val) (Fin.ext hi1))
  show cell _ _ _ _ _ _ _ _ = cell _ _ _ _ _ _ _ _
  rw [south_eq h.lt h.h0 h.hb j i hi0 hi1, north_eq h.lt h.h0 h.ha j i hi0 hi1, hE, hW,
    h.h0 j i hi0 hi1, h.h3 j i hi0 hi1, h.h4 j i hi0 hi1, h.h5 j i hi0 hi1]

/-- The tile's new sodium, potassium and calcium likewise. -/
theorem tileS_at {t : Nat} {v s p c : Arr} {x0 : Tile} {xa xb : Halo} {x3 x4 x5 : Tile}
    (h : BlocksAt t v s p c x0 xa xb x3 x4 x5)
    (j : (⟨2, ![64, 4096]⟩ : Shape).Idx) (i : (⟨2, ![4096, 4096]⟩ : Shape).Idx)
    (hi0 : (i 0).val = 64 * t + (j 0).val) (hi1 : (i 1).val = (j 1).val) :
    tileS t x0 xa xb x3 x4 x5 j = ns v s p c i := by
  show x3 j * wD + wB * max (tileV t x0 xa xb x3 x4 x5 j) w0 = s i * wD + wB * max (nv v s p c i) w0
  rw [tileV_at h j i hi0 hi1, h.h3 j i hi0 hi1]

theorem tileP_at {t : Nat} {v s p c : Arr} {x0 : Tile} {xa xb : Halo} {x3 x4 x5 : Tile}
    (h : BlocksAt t v s p c x0 xa xb x3 x4 x5)
    (j : (⟨2, ![64, 4096]⟩ : Shape).Idx) (i : (⟨2, ![4096, 4096]⟩ : Shape).Idx)
    (hi0 : (i 0).val = 64 * t + (j 0).val) (hi1 : (i 1).val = (j 1).val) :
    tileP t x0 xa xb x3 x4 x5 j = np v s p c i := by
  show x4 j * wD + wB * max (w0 - tileV t x0 xa xb x3 x4 x5 j) w0 = p i * wD + wB * max (w0 - nv v s p c i) w0
  rw [tileV_at h j i hi0 hi1, h.h4 j i hi0 hi1]

theorem tileC_at {t : Nat} {v s p c : Arr} {x0 : Tile} {xa xb : Halo} {x3 x4 x5 : Tile}
    (h : BlocksAt t v s p c x0 xa xb x3 x4 x5)
    (j : (⟨2, ![64, 4096]⟩ : Shape).Idx) (i : (⟨2, ![4096, 4096]⟩ : Shape).Idx)
    (hi0 : (i 0).val = 64 * t + (j 0).val) (hi1 : (i 1).val = (j 1).val) :
    tileC t x0 xa xb x3 x4 x5 j = nc v s p c i := by
  show x5 j * wD + wB * FloatOps.absf (F := Ideal) (φ := .f32) (tileV t x0 xa xb x3 x4 x5 j)
    = c i * wD + wB * FloatOps.absf (F := Ideal) (φ := .f32) (nv v s p c i)
  rw [tileV_at h j i hi0 hi1, h.h5 j i hi0 hi1]

variable (m : (ℓ : Loc nD τ sig) → Buf (Elt Ideal) ℓ)

/-! ## Where the windows' blocks sit -/

/-- The printed index maps in closed form, decided over the grid's 64 points: the tile windows' block
    index is the point; the block above the tile is number `8 t - 1` (0 at the first point: the maximum
    with zero is the natural numbers' subtraction), the block below it `8 t + 8` capped at 511. -/
theorem idx_in : ∀ t : Fin cfg0.N,
    (grid0.coords t 0).val = t.val
    ∧ win0_0.index t (0 : Fin 2) = t.val ∧ win0_0.index t (1 : Fin 2) = 0
    ∧ win0_1.index t (0 : Fin 2) = 8 * t.val - 1 ∧ win0_1.index t (1 : Fin 2) = 0
    ∧ win0_2.index t (0 : Fin 2) = min (8 * t.val + 8) 511 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The result windows' block index is the point. -/
theorem idx_out : ∀ t : Fin cfg0.N,
    win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The voltage tile handed to the body at point `t` is rows `64 t …` of the voltage array. -/
theorem tile0_at (c : Dev nD) (t : Fin cfg0.N) : TileAt t.val (iblk m c 0 t) (V m c main_arg0) := by
  intro j i hi0 hi1
  obtain ⟨-, e0, e1, -⟩ := idx_in t
  show V m c main_arg0 (((cfg0.win 0).blk t).view.emb j) = V m c main_arg0 i
  refine congrArg (V m c main_arg0) ?_
  funext a; apply Fin.ext
  match a with
  | ⟨0, _⟩ => show win0_0.index t (0 : Fin 2) * 64 + 1 * (j 0).val = (i 0).val; omega
  | ⟨1, _⟩ => show win0_0.index t (1 : Fin 2) * 4096 + 1 * (j 1).val = (i 1).val; omega

/-- The block above: rows `8 (8 t - 1) …` of the voltage array. -/
theorem halo1_at (c : Dev nD) (t : Fin cfg0.N) : HaloAt (8 * t.val - 1) (iblk m c 1 t) (V m c main_arg0) := by
  intro j i hi0 hi1
  obtain ⟨-, -, -, e0, e1, -⟩ := idx_in t
  show V m c main_arg0 (((cfg0.win 1).blk t).view.emb j) = V m c main_arg0 i
  refine congrArg (V m c main_arg0) ?_
  funext a; apply Fin.ext
  match a with
  | ⟨0, _⟩ => show win0_1.index t (0 : Fin 2) * 8 + 1 * (j 0).val = (i 0).val; omega
  | ⟨1, _⟩ => show win0_1.index t (1 : Fin 2) * 4096 + 1 * (j 1).val = (i 1).val; omega

/-- The block below: rows `8 min (8 t + 8) 511 …` of the voltage array. -/
theorem halo2_at (c : Dev nD) (t : Fin cfg0.N) : HaloAt (min (8 * t.val + 8) 511) (iblk m c 2 t) (V m c main_arg0) := by
  intro j i hi0 hi1
  obtain ⟨-, -, -, -, -, e0, e1, -⟩ := idx_in t
  show V m c main_arg0 (((cfg0.win 2).blk t).view.emb j) = V m c main_arg0 i
  refine congrArg (V m c main_arg0) ?_
  funext a; apply Fin.ext
  match a with
  | ⟨0, _⟩ => show win0_2.index t (0 : Fin 2) * 8 + 1 * (j 0).val = (i 0).val; omega
  | ⟨1, _⟩ => show win0_2.index t (1 : Fin 2) * 4096 + 1 * (j 1).val = (i 1).val; omega

/-- The three ion tiles: rows `64 t …` of their arrays. -/
theorem tile3_at (c : Dev nD) (t : Fin cfg0.N) : TileAt t.val (iblk m c 3 t) (V m c main_arg1) := by
  intro j i hi0 hi1
  obtain ⟨-, -, -, -, -, -, -, e0, e1, -⟩ := idx_in t
  show V m c main_arg1 (((cfg0.win 3).blk t).view.emb j) = V m c main_arg1 i
  refine congrArg (V m c main_arg1) ?_
  funext a; apply Fin.ext
  match a with
  | ⟨0, _⟩ => show win0_3.index t (0 : Fin 2) * 64 + 1 * (j 0).val = (i 0).val; omega
  | ⟨1, _⟩ => show win0_3.index t (1 : Fin 2) * 4096 + 1 * (j 1).val = (i 1).val; omega

theorem tile4_at (c : Dev nD) (t : Fin cfg0.N) : TileAt t.val (iblk m c 4 t) (V m c main_arg2) := by
  intro j i hi0 hi1
  obtain ⟨-, -, -, -, -, -, -, -, -, e0, e1, -⟩ := idx_in t
  show V m c main_arg2 (((cfg0.win 4).blk t).view.emb j) = V m c main_arg2 i
  refine congrArg (V m c main_arg2) ?_
  funext a; apply Fin.ext
  match a with
  | ⟨0, _⟩ => show win0_4.index t (0 : Fin 2) * 64 + 1 * (j 0).val = (i 0).val; omega
  | ⟨1, _⟩ => show win0_4.index t (1 : Fin 2) * 4096 + 1 * (j 1).val = (i 1).val; omega

theorem tile5_at (c : Dev nD) (t : Fin cfg0.N) : TileAt t.val (iblk m c 5 t) (V m c main_arg3) := by
  intro j i hi0 hi1
  obtain ⟨-, -, -, -, -, -, -, -, -, -, -, e0, e1⟩ := idx_in t
  show V m c main_arg3 (((cfg0.win 5).blk t).view.emb j) = V m c main_arg3 i
  refine congrArg (V m c main_arg3) ?_
  funext a; apply Fin.ext
  match a with
  | ⟨0, _⟩ => show win0_5.index t (0 : Fin 2) * 64 + 1 * (j 0).val = (i 0).val; omega
  | ⟨1, _⟩ => show win0_5.index t (1 : Fin 2) * 4096 + 1 * (j 1).val = (i 1).val; omega

/-- The six blocks of point `t` sit in the four argument arrays as the specification's tile wants. -/
theorem blocks_at (c : Dev nD) (t : Fin cfg0.N) :
    BlocksAt t.val (V m c main_arg0) (V m c main_arg1) (V m c main_arg2) (V m c main_arg3)
      (iblk m c 0 t) (iblk m c 1 t) (iblk m c 2 t) (iblk m c 3 t) (iblk m c 4 t) (iblk m c 5 t) :=
  ⟨Nat.lt_of_lt_of_eq t.isLt N_0, tile0_at m c t, halo1_at m c t, halo2_at m c t, tile3_at m c t, tile4_at m c t, tile5_at m c t⟩

/-! ## What each point writes back -/

/-- Point `t` writes block `t` of the specification's new voltage array. -/
theorem flushedV_eq (c : Dev nD) (t : Fin cfg0.N) :
    (dats m 0 c).flushed 6 t = ((cfg0.win 6).blk t).view.read (Elt Ideal)
      (Cert.Spec.nv (V m c main_arg0) (V m c main_arg1) (V m c main_arg2) (V m c main_arg3)) := by
  show (cfg0.win 6).cut (grid0.coords t) ((dats m 0 c).after 6 t) = _
  rw [after0_6, outV_eq]
  obtain ⟨ec, -⟩ := idx_in t
  obtain ⟨e0, e1, -⟩ := idx_out t
  rw [ec]
  funext y
  rw [View.read_apply]
  refine tileV_at (blocks_at m c t) _ _ ?_ ?_
  · show win0_6.index t (0 : Fin 2) * 64 + 1 * (y 0).val = 64 * t.val + (y 0).val; omega
  · show win0_6.index t (1 : Fin 2) * 4096 + 1 * (y 1).val = (y 1).val; omega

/-- Point `t` writes block `t` of the specification's new sodium array. -/
theorem flushedS_eq (c : Dev nD) (t : Fin cfg0.N) :
    (dats m 0 c).flushed 7 t = ((cfg0.win 7).blk t).view.read (Elt Ideal)
      (Cert.Spec.ns (V m c main_arg0) (V m c main_arg1) (V m c main_arg2) (V m c main_arg3)) := by
  show (cfg0.win 7).cut (grid0.coords t) ((dats m 0 c).after 7 t) = _
  rw [after0_7, outS_eq]
  obtain ⟨ec, -⟩ := idx_in t
  obtain ⟨-, -, e0, e1, -⟩ := idx_out t
  rw [ec]
  funext y
  rw [View.read_apply]
  refine tileS_at (blocks_at m c t) _ _ ?_ ?_
  · show win0_7.index t (0 : Fin 2) * 64 + 1 * (y 0).val = 64 * t.val + (y 0).val; omega
  · show win0_7.index t (1 : Fin 2) * 4096 + 1 * (y 1).val = (y 1).val; omega

/-- Point `t` writes block `t` of the specification's new potassium array. -/
theorem flushedP_eq (c : Dev nD) (t : Fin cfg0.N) :
    (dats m 0 c).flushed 8 t = ((cfg0.win 8).blk t).view.read (Elt Ideal)
      (Cert.Spec.np (V m c main_arg0) (V m c main_arg1) (V m c main_arg2) (V m c main_arg3)) := by
  show (cfg0.win 8).cut (grid0.coords t) ((dats m 0 c).after 8 t) = _
  rw [after0_8, outP_eq]
  obtain ⟨ec, -⟩ := idx_in t
  obtain ⟨-, -, -, -, e0, e1, -⟩ := idx_out t
  rw [ec]
  funext y
  rw [View.read_apply]
  refine tileP_at (blocks_at m c t) _ _ ?_ ?_
  · show win0_8.index t (0 : Fin 2) * 64 + 1 * (y 0).val = 64 * t.val + (y 0).val; omega
  · show win0_8.index t (1 : Fin 2) * 4096 + 1 * (y 1).val = (y 1).val; omega

/-- Point `t` writes block `t` of the specification's new calcium array. -/
theorem flushedC_eq (c : Dev nD) (t : Fin cfg0.N) :
    (dats m 0 c).flushed 9 t = ((cfg0.win 9).blk t).view.read (Elt Ideal)
      (Cert.Spec.nc (V m c main_arg0) (V m c main_arg1) (V m c main_arg2) (V m c main_arg3)) := by
  show (cfg0.win 9).cut (grid0.coords t) ((dats m 0 c).after 9 t) = _
  rw [after0_9, outC_eq]
  obtain ⟨ec, -⟩ := idx_in t
  obtain ⟨-, -, -, -, -, -, e0, e1⟩ := idx_out t
  rw [ec]
  funext y
  rw [View.read_apply]
  refine tileC_at (blocks_at m c t) _ _ ?_ ?_
  · show win0_9.index t (0 : Fin 2) * 64 + 1 * (y 0).val = 64 * t.val + (y 0).val; omega
  · show win0_9.index t (1 : Fin 2) * 4096 + 1 * (y 1).val = (y 1).val; omega

/-! ## The tiles cover each result array -/

/-- An index of the new voltage array is in point `t`'s block iff each coordinate is in the block's range. -/
theorem mem_blk6 (t : Fin cfg0.N) (i : S4096x4096.Idx) :
    i ∈ ((cfg0.win 6).blk t).view.set ↔ ∀ a : Fin 2, win0_6.index t a * S64x4096.size a ≤ (i a).val
      ∧ (i a).val < win0_6.index t a * S64x4096.size a + S64x4096.size a := by
  show i ∈ ((View.whole main_v0_0).slice (win0_6.rect t)).set ↔ _
  rw [View.set_slice_whole, Rect.mem_set_unit]
  exact Iff.rfl

/-- The tiles cover the new voltage array: row `R` is in the tile of point `R / 64`. -/
theorem cover6 (i : S4096x4096.Idx) :
    ∃ t : Fin cfg0.N, (cfg0.win 6).flush t = true ∧ i ∈ ((cfg0.win 6).blk t).view.set := by
  have hi0 : (i 0).val < 4096 := idx2_lt0 i
  have hi1 : (i 1).val < 4096 := idx2_lt1 i
  obtain ⟨t, ht⟩ : ∃ t : Fin cfg0.N, t.val = (i 0).val / 64 :=
    ⟨⟨(i 0).val / 64, Nat.lt_of_lt_of_eq (by omega : (i 0).val / 64 < 64) N_0.symm⟩, rfl⟩
  obtain ⟨e0, e1, -⟩ := idx_out t
  refine ⟨t, flush0_6 t, ?_⟩
  rw [mem_blk6]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 4096 ≤ (i 1).val ∧ (i 1).val < win0_6.index t (1 : Fin 2) * 4096 + 4096; omega

/-- So the new voltage array ends holding the specification's array of the arguments. -/
theorem final6 (c : Dev nD) : (dats m 0 c).arrAt 6 cfg0.N
    = Cert.Spec.nv (V m c main_arg0) (V m c main_arg1) (V m c main_arg2) (V m c main_arg3) :=
  (dats m 0 c).arrAt_eq_of_cover 6 _ (fun t _ => flushedV_eq m c t) cover6

/-- An index of the new sodium array is in point `t`'s block iff each coordinate is in the block's range. -/
theorem mem_blk7 (t : Fin cfg0.N) (i : S4096x4096.Idx) :
    i ∈ ((cfg0.win 7).blk t).view.set ↔ ∀ a : Fin 2, win0_7.index t a * S64x4096.size a ≤ (i a).val
      ∧ (i a).val < win0_7.index t a * S64x4096.size a + S64x4096.size a := by
  show i ∈ ((View.whole main_v0_1).slice (win0_7.rect t)).set ↔ _
  rw [View.set_slice_whole, Rect.mem_set_unit]
  exact Iff.rfl

/-- The tiles cover the new sodium array: row `R` is in the tile of point `R / 64`. -/
theorem cover7 (i : S4096x4096.Idx) :
    ∃ t : Fin cfg0.N, (cfg0.win 7).flush t = true ∧ i ∈ ((cfg0.win 7).blk t).view.set := by
  have hi0 : (i 0).val < 4096 := idx2_lt0 i
  have hi1 : (i 1).val < 4096 := idx2_lt1 i
  obtain ⟨t, ht⟩ : ∃ t : Fin cfg0.N, t.val = (i 0).val / 64 :=
    ⟨⟨(i 0).val / 64, Nat.lt_of_lt_of_eq (by omega : (i 0).val / 64 < 64) N_0.symm⟩, rfl⟩
  obtain ⟨-, -, e0, e1, -⟩ := idx_out t
  refine ⟨t, flush0_7 t, ?_⟩
  rw [mem_blk7]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 4096 ≤ (i 1).val ∧ (i 1).val < win0_7.index t (1 : Fin 2) * 4096 + 4096; omega

/-- So the new sodium array ends holding the specification's array of the arguments. -/
theorem final7 (c : Dev nD) : (dats m 0 c).arrAt 7 cfg0.N
    = Cert.Spec.ns (V m c main_arg0) (V m c main_arg1) (V m c main_arg2) (V m c main_arg3) :=
  (dats m 0 c).arrAt_eq_of_cover 7 _ (fun t _ => flushedS_eq m c t) cover7

/-- An index of the new potassium array is in point `t`'s block iff each coordinate is in the block's range. -/
theorem mem_blk8 (t : Fin cfg0.N) (i : S4096x4096.Idx) :
    i ∈ ((cfg0.win 8).blk t).view.set ↔ ∀ a : Fin 2, win0_8.index t a * S64x4096.size a ≤ (i a).val
      ∧ (i a).val < win0_8.index t a * S64x4096.size a + S64x4096.size a := by
  show i ∈ ((View.whole main_v0_2).slice (win0_8.rect t)).set ↔ _
  rw [View.set_slice_whole, Rect.mem_set_unit]
  exact Iff.rfl

/-- The tiles cover the new potassium array: row `R` is in the tile of point `R / 64`. -/
theorem cover8 (i : S4096x4096.Idx) :
    ∃ t : Fin cfg0.N, (cfg0.win 8).flush t = true ∧ i ∈ ((cfg0.win 8).blk t).view.set := by
  have hi0 : (i 0).val < 4096 := idx2_lt0 i
  have hi1 : (i 1).val < 4096 := idx2_lt1 i
  obtain ⟨t, ht⟩ : ∃ t : Fin cfg0.N, t.val = (i 0).val / 64 :=
    ⟨⟨(i 0).val / 64, Nat.lt_of_lt_of_eq (by omega : (i 0).val / 64 < 64) N_0.symm⟩, rfl⟩
  obtain ⟨-, -, -, -, e0, e1, -⟩ := idx_out t
  refine ⟨t, flush0_8 t, ?_⟩
  rw [mem_blk8]
  intro a
  match a with
  | ⟨0, _⟩ => show win0_8.index t (0 : Fin 2) * 64 ≤ (i 0).val ∧ (i 0).val < win0_8.index t (0 : Fin 2) * 64 + 64; omega
  | ⟨1, _⟩ => show win0_8.index t (1 : Fin 2) * 4096 ≤ (i 1).val ∧ (i 1).val < win0_8.index t (1 : Fin 2) * 4096 + 4096; omega

/-- So the new potassium array ends holding the specification's array of the arguments. -/
theorem final8 (c : Dev nD) : (dats m 0 c).arrAt 8 cfg0.N
    = Cert.Spec.np (V m c main_arg0) (V m c main_arg1) (V m c main_arg2) (V m c main_arg3) :=
  (dats m 0 c).arrAt_eq_of_cover 8 _ (fun t _ => flushedP_eq m c t) cover8

/-- An index of the new calcium array is in point `t`'s block iff each coordinate is in the block's range. -/
theorem mem_blk9 (t : Fin cfg0.N) (i : S4096x4096.Idx) :
    i ∈ ((cfg0.win 9).blk t).view.set ↔ ∀ a : Fin 2, win0_9.index t a * S64x4096.size a ≤ (i a).val
      ∧ (i a).val < win0_9.index t a * S64x4096.size a + S64x4096.size a := by
  show i ∈ ((View.whole main_v0_3).slice (win0_9.rect t)).set ↔ _
  rw [View.set_slice_whole, Rect.mem_set_unit]
  exact Iff.rfl

/-- The tiles cover the new calcium array: row `R` is in the tile of point `R / 64`. -/
theorem cover9 (i : S4096x4096.Idx) :
    ∃ t : Fin cfg0.N, (cfg0.win 9).flush t = true ∧ i ∈ ((cfg0.win 9).blk t).view.set := by
  have hi0 : (i 0).val < 4096 := idx2_lt0 i
  have hi1 : (i 1).val < 4096 := idx2_lt1 i
  obtain ⟨t, ht⟩ : ∃ t : Fin cfg0.N, t.val = (i 0).val / 64 :=
    ⟨⟨(i 0).val / 64, Nat.lt_of_lt_of_eq (by omega : (i 0).val / 64 < 64) N_0.symm⟩, rfl⟩
  obtain ⟨-, -, -, -, -, -, e0, e1⟩ := idx_out t
  refine ⟨t, flush0_9 t, ?_⟩
  rw [mem_blk9]
  intro a
  match a with
  | ⟨0, _⟩ => show win0_9.index t (0 : Fin 2) * 64 ≤ (i 0).val ∧ (i 0).val < win0_9.index t (0 : Fin 2) * 64 + 64; omega
  | ⟨1, _⟩ => show win0_9.index t (1 : Fin 2) * 4096 ≤ (i 1).val ∧ (i 1).val < win0_9.index t (1 : Fin 2) * 4096 + 4096; omega

/-- So the new calcium array ends holding the specification's array of the arguments. -/
theorem final9 (c : Dev nD) : (dats m 0 c).arrAt 9 cfg0.N
    = Cert.Spec.nc (V m c main_arg0) (V m c main_arg1) (V m c main_arg2) (V m c main_arg3) :=
  (dats m 0 c).arrAt_eq_of_cover 9 _ (fun t _ => flushedC_eq m c t) cover9

end Tiles

/-- The idealized kernel's run with every result array named: the specification's arrays of the arguments. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = Cert.Spec.nv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread nD τ).loc main_v0_1) = Cert.Spec.ns (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread nD τ).loc main_v0_2) = Cert.Spec.np (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread nD τ).loc main_v0_3) = Cert.Spec.nc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run defs _ _).mono (fun r h c =>
    ⟨((h c).1 6).trans (Tiles.final6 m c),
     ((h c).1 7).trans (Tiles.final7 m c),
     ((h c).1 8).trans (Tiles.final8 m c),
     ((h c).1 9).trans (Tiles.final9 m c),
     ((h c).1 0).trans (((dats m 0 c).arrAt_in 0 rfl _).trans (A_eq m c 0)),
     ((h c).1 3).trans (((dats m 0 c).arrAt_in 3 rfl _).trans (A_eq m c 3)),
     ((h c).1 4).trans (((dats m 0 c).arrAt_in 4 rfl _).trans (A_eq m c 4)),
     ((h c).1 5).trans (((dats m 0 c).arrAt_in 5 rfl _).trans (A_eq m c 5))⟩) (run_main (F := Ideal) m ρ)

end Cert.KernelIdeal.Hand

end
-- ==== Proof.RefTerm.lean ====
/-
  The reference's results as pure terms of its four argument arrays: the printed host operations
  composed in program order.

  `pad v` is jnp's reflect padding by one cell on each side, as the program builds it: a row of the
  array put in front and one behind (rows 1 and 4094: the reversal of a one-row slice along its
  rows is that row again), then the same with columns of the row-padded array. The four shifted
  copies of the array are slices of `pad v`; the rest is pointwise.
-/
import proofs.«161542_j59382217834966_1_alg».proof.Proof.Gen.ReferenceIdeal

noncomputable section

namespace Cert.ReferenceIdeal.RefTerm

open Idealize.ShloMosaic Cert.ReferenceIdeal Cert.ReferenceIdeal.Facts₀

variable {F : FTy → Type} [FloatOps F]

/-- The array with row 1 put in front: 4097 rows. -/
def padTop (v : FVec F S4096x4096 .f32) : FVec F S4097x4096 .f32 :=
  concatenate S4097x4096 0
    [⟨S1x4096, Host.reverse [0] (extractStridedSlice S1x4096 ![1, 0] v slices_S4096x4096_S1x4096_1_0)⟩, ⟨S4096x4096, v⟩]
    concatenates_S1x4096_S4096x4096_S4097x4096_d0

/-- … and row 4094 (row 4095 of the 4097) put behind: 4098 rows. -/
def padRows (v : FVec F S4096x4096 .f32) : FVec F S4098x4096 .f32 :=
  concatenate S4098x4096 0
    [⟨S4097x4096, padTop v⟩,
     ⟨S1x4096, Host.reverse [0] (extractStridedSlice S1x4096 ![4095, 0] (padTop v) slices_S4097x4096_S1x4096_4095_0)⟩]
    concatenates_S4097x4096_S1x4096_S4098x4096_d0

/-- The row-padded array with its column 1 put in front: 4097 columns. -/
def padLeft (v : FVec F S4096x4096 .f32) : FVec F S4098x4097 .f32 :=
  concatenate S4098x4097 1
    [⟨S4098x1, Host.reverse [1] (extractStridedSlice S4098x1 ![0, 1] (padRows v) slices_S4098x4096_S4098x1_0_1)⟩, ⟨S4098x4096, padRows v⟩]
    concatenates_S4098x1_S4098x4096_S4098x4097_d1

/-- … and its column 4094 (column 4095 of the 4097) put behind: the reflect-padded array. -/
def pad (v : FVec F S4096x4096 .f32) : FVec F S4098x4098 .f32 :=
  concatenate S4098x4098 1
    [⟨S4098x4097, padLeft v⟩,
     ⟨S4098x1, Host.reverse [1] (extractStridedSlice S4098x1 ![0, 4095] (padLeft v) slices_S4098x4097_S4098x1_0_4095)⟩]
    concatenates_S4098x4097_S4098x1_S4098x4098_d1

/-- A float word broadcast over the grid, as the host spells it. -/
def splat (w : BitVec 32) : FVec F S4096x4096 .f32 :=
  broadcastInDim S4096x4096 ![] bcast_S_S4096x4096 (constant S_ .f32 w)

/-- The Laplacian: south + north + east + west - 4 v, each neighbour a slice of the padded array. -/
def lap (v : FVec F S4096x4096 .f32) : FVec F S4096x4096 .f32 :=
  subf
    (addf (addf (addf (extractStridedSlice S4096x4096 ![2, 1] (pad v) slices_S4098x4098_S4096x4096_2_1)
                      (extractStridedSlice S4096x4096 ![0, 1] (pad v) slices_S4098x4098_S4096x4096_0_1))
                (extractStridedSlice S4096x4096 ![1, 2] (pad v) slices_S4098x4098_S4096x4096_1_2))
          (extractStridedSlice S4096x4096 ![1, 0] (pad v) slices_S4098x4098_S4096x4096_1_0))
    (mulf (splat 0x40800000#32) v)

/-- The new voltage. -/
def nv (v s p c : FVec F S4096x4096 .f32) : FVec F S4096x4096 .f32 :=
  Host.tanh (addf v (mulf (splat 0x3DCCCCCD#32)
    (addf (subf (addf (mulf (splat 0x3F000000#32) (lap v)) (mulf (splat 0x3DCCCCCD#32) s)) (mulf (splat 0x3D4CCCCD#32) p))
          (mulf (splat 0x3DA3D70A#32) c))))

/-- The new sodium, potassium and calcium. -/
def ns (v s p c : FVec F S4096x4096 .f32) : FVec F S4096x4096 .f32 :=
  addf (mulf s (splat 0x3F733333#32)) (mulf (splat 0x3D4CCCCD#32) (maximumf (nv v s p c) (splat 0x00000000#32)))
def np (v s p c : FVec F S4096x4096 .f32) : FVec F S4096x4096 .f32 :=
  addf (mulf p (splat 0x3F733333#32)) (mulf (splat 0x3D4CCCCD#32) (maximumf (Host.negf (nv v s p c)) (splat 0x00000000#32)))
def nc (v s p c : FVec F S4096x4096 .f32) : FVec F S4096x4096 .f32 :=
  addf (mulf c (splat 0x3F733333#32)) (mulf (splat 0x3D4CCCCD#32) (Host.absf (nv v s p c)))

end Cert.ReferenceIdeal.RefTerm

end
-- ==== Proof.RefRun.lean ====
/-
  The reference's run: @main is a straight line of host operations (the padding, the relu's and their
  constants inlined where they are called), so every weakly fair execution of it ends, nothing
  faulting, with each result at the operations' composed term of the argument arrays and the
  argument arrays unchanged.
-/
import proofs.«161542_j59382217834966_1_alg».proof.Proof.RefTerm
import Idealize.ShloMosaic.Lib.StableHlo.Run

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

section Line

open Idealize.ShloMosaic.StableHlo

/-- @main's 77 operations in program order, the padding's sixteen (its four one-line reversals among them) and the
    two relu's three each listed where they are called, over the buffers of that call's record. -/
abbrev ops : List (HloOp τ sig (Elt F)) :=
  [ StableHlo.nullary main_c (constantI S_ 32 0#32),
    StableHlo.TRef.unary (.of main_arg0 : StableHlo.TRef sig ⟨S4096x4096, .f32⟩) main_call0.v0 (extractStridedSlice S1x4096 ![0, 0] · slices_S4096x4096_S1x4096_0_0),
    StableHlo.TRef.unary (.of main_arg0 : StableHlo.TRef sig ⟨S4096x4096, .f32⟩) main_call0.v1 (extractStridedSlice S1x4096 ![1, 0] · slices_S4096x4096_S1x4096_1_0),
    StableHlo.TRef.unary main_call0.v1 main_call0.call0.v0 (Host.reverse [0]),
    StableHlo.TRef.binary main_call0.call0.v0 (.of main_arg0 : StableHlo.TRef sig ⟨S4096x4096, .f32⟩) main_call0.v3 (fun a b => concatenate S4097x4096 0 [⟨S1x4096, a⟩, ⟨S4096x4096, b⟩] concatenates_S1x4096_S4096x4096_S4097x4096_d0),
    StableHlo.TRef.unary main_call0.v3 main_call0.v4 (extractStridedSlice S1x4096 ![4096, 0] · slices_S4097x4096_S1x4096_4096_0),
    StableHlo.TRef.unary main_call0.v3 main_call0.v5 (extractStridedSlice S1x4096 ![4095, 0] · slices_S4097x4096_S1x4096_4095_0),
    StableHlo.TRef.unary main_call0.v5 main_call0.call1.v0 (Host.reverse [0]),
    StableHlo.TRef.binary main_call0.v3 main_call0.call1.v0 main_call0.v7 (fun a b => concatenate S4098x4096 0 [⟨S4097x4096, a⟩, ⟨S1x4096, b⟩] concatenates_S4097x4096_S1x4096_S4098x4096_d0),
    StableHlo.TRef.unary main_call0.v7 main_call0.v8 (extractStridedSlice S4098x1 ![0, 0] · slices_S4098x4096_S4098x1_0_0),
    StableHlo.TRef.unary main_call0.v7 main_call0.v9 (extractStridedSlice S4098x1 ![0, 1] · slices_S4098x4096_S4098x1_0_1),
    StableHlo.TRef.unary main_call0.v9 main_call0.call2.v0 (Host.reverse [1]),
    StableHlo.TRef.binary main_call0.call2.v0 main_call0.v7 main_call0.v11 (fun a b => concatenate S4098x4097 1 [⟨S4098x1, a⟩, ⟨S4098x4096, b⟩] concatenates_S4098x1_S4098x4096_S4098x4097_d1),
    StableHlo.TRef.unary main_call0.v11 main_call0.v12 (extractStridedSlice S4098x1 ![0, 4096] · slices_S4098x4097_S4098x1_0_4096),
    StableHlo.TRef.unary main_call0.v11 main_call0.v13 (extractStridedSlice S4098x1 ![0, 4095] · slices_S4098x4097_S4098x1_0_4095),
    StableHlo.TRef.unary main_call0.v13 main_call0.call3.v0 (Host.reverse [1]),
    StableHlo.TRef.binary main_call0.v11 main_call0.call3.v0 main_call0.v15 (fun a b => concatenate S4098x4098 1 [⟨S4098x4097, a⟩, ⟨S4098x1, b⟩] concatenates_S4098x4097_S4098x1_S4098x4098_d1),
    StableHlo.unary main_v0 main_v1 ((extractStridedSlice S4096x4096 ![2, 1] · slices_S4098x4098_S4096x4096_2_1) : (⟨S4098x4098, .f32⟩ : BufTy).Contents (Elt F) → (⟨S4096x4096, .f32⟩ : BufTy).Contents (Elt F)),
    StableHlo.unary main_v0 main_v2 ((extractStridedSlice S4096x4096 ![0, 1] · slices_S4098x4098_S4096x4096_0_1) : (⟨S4098x4098, .f32⟩ : BufTy).Contents (Elt F) → (⟨S4096x4096, .f32⟩ : BufTy).Contents (Elt F)),
    StableHlo.binary main_v1 main_v2 main_v3 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v4 ((extractStridedSlice S4096x4096 ![1, 2] · slices_S4098x4098_S4096x4096_1_2) : (⟨S4098x4098, .f32⟩ : BufTy).Contents (Elt F) → (⟨S4096x4096, .f32⟩ : BufTy).Contents (Elt F)),
    StableHlo.binary main_v3 main_v4 main_v5 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v6 ((extractStridedSlice S4096x4096 ![1, 0] · slices_S4098x4098_S4096x4096_1_0) : (⟨S4098x4098, .f32⟩ : BufTy).Contents (Elt F) → (⟨S4096x4096, .f32⟩ : BufTy).Contents (Elt F)),
    StableHlo.binary main_v5 main_v6 main_v7 (addf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x40800000#32),
    StableHlo.unary main_cst main_v8 (broadcastInDim S4096x4096 ![] bcast_S_S4096x4096 : (⟨S_, .f32⟩ : BufTy).Contents (Elt F) → (⟨S4096x4096, .f32⟩ : BufTy).Contents (Elt F)),
    StableHlo.binary main_v8 main_arg0 main_v9 (mulf : (⟨S4096x4096, .f32⟩ : BufTy).Contents (Elt F) → (⟨S4096x4096, .f32⟩ : BufTy).Contents (Elt F) → (⟨S4096x4096, .f32⟩ : BufTy).Contents (Elt F)),
    StableHlo.binary main_v7 main_v9 main_v10 (subf : (⟨S4096x4096, .f32⟩ : BufTy).Contents (Elt F) → (⟨S4096x4096, .f32⟩ : BufTy).Contents (Elt F) → (⟨S4096x4096, .f32⟩ : BufTy).Contents (Elt F)),
    StableHlo.nullary main_cst_0 (constant S_ .f32 0x3F000000#32),
    StableHlo.unary main_cst_0 main_v11 (broadcastInDim S4096x4096 ![] bcast_S_S4096x4096 : (⟨S_, .f32⟩ : BufTy).Contents (Elt F) → (⟨S4096x4096, .f32⟩ : BufTy).Contents (Elt F)),
    StableHlo.binary main_v11 main_v10 main_v12 (mulf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x3DCCCCCD#32),
    StableHlo.unary main_cst_1 main_v13 (broadcastInDim S4096x4096 ![] bcast_S_S4096x4096 : (⟨S_, .f32⟩ : BufTy).Contents (Elt F) → (⟨S4096x4096, .f32⟩ : BufTy).Contents (Elt F)),
    StableHlo.binary main_v13 main_arg1 main_v14 (mulf : (⟨S4096x4096, .f32⟩ : BufTy).Contents (Elt F) → (⟨S4096x4096, .f32⟩ : BufTy).Contents (Elt F) → (⟨S4096x4096, .f32⟩ : BufTy).Contents (Elt F)),
    StableHlo.binary main_v12 main_v14 main_v15 (addf : (⟨S4096x4096, .f32⟩ : BufTy).Contents (Elt F) → (⟨S4096x4096, .f32⟩ : BufTy).Contents (Elt F) → (⟨S4096x4096, .f32⟩ : BufTy).Contents (Elt F)),
    StableHlo.nullary main_cst_2 (constant S_ .f32 0x3D4CCCCD#32),
    StableHlo.unary main_cst_2 main_v16 (broadcastInDim S4096x4096 ![] bcast_S_S4096x4096 : (⟨S_, .f32⟩ : BufTy).Contents (Elt F) → (⟨S4096x4096, .f32⟩ : BufTy).Contents (Elt F)),
    StableHlo.binary main_v16 main_arg2 main_v17 (mulf : (⟨S4096x4096, .f32⟩ : BufTy).Contents (Elt F) → (⟨S4096x4096, .f32⟩ : BufTy).Contents (Elt F) → (⟨S4096x4096, .f32⟩ : BufTy).Contents (Elt F)),
    StableHlo.binary main_v15 main_v17 main_v18 (subf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x3DA3D70A#32),
    StableHlo.unary main_cst_3 main_v19 (broadcastInDim S4096x4096 ![] bcast_S_S4096x4096 : (⟨S_, .f32⟩ : BufTy).Contents (Elt F) → (⟨S4096x4096, .f32⟩ : BufTy).Contents (Elt F)),
    StableHlo.binary main_v19 main_arg3 main_v20 (mulf : (⟨S4096x4096, .f32⟩ : BufTy).Contents (Elt F) → (⟨S4096x4096, .f32⟩ : BufTy).Contents (Elt F) → (⟨S4096x4096, .f32⟩ : BufTy).Contents (Elt F)),
    StableHlo.binary main_v18 main_v20 main_v21 (addf : (⟨S4096x4096, .f32⟩ : BufTy).Contents (Elt F) → (⟨S4096x4096, .f32⟩ : BufTy).Contents (Elt F) → (⟨S4096x4096, .f32⟩ : BufTy).Contents (Elt F)),
    StableHlo.nullary main_cst_4 (constant S_ .f32 0x3DCCCCCD#32),
    StableHlo.unary main_cst_4 main_v22 (broadcastInDim S4096x4096 ![] bcast_S_S4096x4096 : (⟨S_, .f32⟩ : BufTy).Contents (Elt F) → (⟨S4096x4096, .f32⟩ : BufTy).Contents (Elt F)),
    StableHlo.binary main_v22 main_v21 main_v23 (mulf : (⟨S4096x4096, .f32⟩ : BufTy).Contents (Elt F) → (⟨S4096x4096, .f32⟩ : BufTy).Contents (Elt F) → (⟨S4096x4096, .f32⟩ : BufTy).Contents (Elt F)),
    StableHlo.binary main_arg0 main_v23 main_v24 (addf : (⟨S4096x4096, .f32⟩ : BufTy).Contents (Elt F) → (⟨S4096x4096, .f32⟩ : BufTy).Contents (Elt F) → (⟨S4096x4096, .f32⟩ : BufTy).Contents (Elt F)),
    StableHlo.unary main_v24 main_v25 (Host.tanh : (⟨S4096x4096, .f32⟩ : BufTy).Contents (Elt F) → (⟨S4096x4096, .f32⟩ : BufTy).Contents (Elt F)),
    StableHlo.nullary main_cst_5 (constant S_ .f32 0x3F733333#32),
    StableHlo.unary main_cst_5 main_v26 (broadcastInDim S4096x4096 ![] bcast_S_S4096x4096 : (⟨S_, .f32⟩ : BufTy).Contents (Elt F) → (⟨S4096x4096, .f32⟩ : BufTy).Contents (Elt F)),
    StableHlo.binary main_arg1 main_v26 main_v27 (mulf : (⟨S4096x4096, .f32⟩ : BufTy).Contents (Elt F) → (⟨S4096x4096, .f32⟩ : BufTy).Contents (Elt F) → (⟨S4096x4096, .f32⟩ : BufTy).Contents (Elt F)),
    StableHlo.TRef.nullary main_call1.cst (constant S_ .f32 0x00000000#32),
    StableHlo.TRef.unary main_call1.cst main_call1.v0 (broadcastInDim S4096x4096 ![] bcast_S_S4096x4096),
    StableHlo.TRef.binary (.of main_v25 : StableHlo.TRef sig ⟨S4096x4096, .f32⟩) main_call1.v0 main_call1.v1 maximumf,
    StableHlo.nullary main_cst_6 (constant S_ .f32 0x3D4CCCCD#32),
    StableHlo.unary main_cst_6 main_v29 (broadcastInDim S4096x4096 ![] bcast_S_S4096x4096 : (⟨S_, .f32⟩ : BufTy).Contents (Elt F) → (⟨S4096x4096, .f32⟩ : BufTy).Contents (Elt F)),
    StableHlo.binary main_v29 main_v28 main_v30 (mulf : (⟨S4096x4096, .f32⟩ : BufTy).Contents (Elt F) → (⟨S4096x4096, .f32⟩ : BufTy).Contents (Elt F) → (⟨S4096x4096, .f32⟩ : BufTy).Contents (Elt F)),
    StableHlo.binary main_v27 main_v30 main_v31 (addf : (⟨S4096x4096, .f32⟩ : BufTy).Contents (Elt F) → (⟨S4096x4096, .f32⟩ : BufTy).Contents (Elt F) → (⟨S4096x4096, .f32⟩ : BufTy).Contents (Elt F)),
    StableHlo.nullary main_cst_7 (constant S_ .f32 0x3F733333#32),
    StableHlo.unary main_cst_7 main_v32 (broadcastInDim S4096x4096 ![] bcast_S_S4096x4096 : (⟨S_, .f32⟩ : BufTy).Contents (Elt F) → (⟨S4096x4096, .f32⟩ : BufTy).Contents (Elt F)),
    StableHlo.binary main_arg2 main_v32 main_v33 (mulf : (⟨S4096x4096, .f32⟩ : BufTy).Contents (Elt F) → (⟨S4096x4096, .f32⟩ : BufTy).Contents (Elt F) → (⟨S4096x4096, .f32⟩ : BufTy).Contents (Elt F)),
    StableHlo.unary main_v25 main_v34 (Host.negf : (⟨S4096x4096, .f32⟩ : BufTy).Contents (Elt F) → (⟨S4096x4096, .f32⟩ : BufTy).Contents (Elt F)),
    StableHlo.TRef.nullary main_call2.cst (constant S_ .f32 0x00000000#32),
    StableHlo.TRef.unary main_call2.cst main_call2.v0 (broadcastInDim S4096x4096 ![] bcast_S_S4096x4096),
    StableHlo.TRef.binary (.of main_v34 : StableHlo.TRef sig ⟨S4096x4096, .f32⟩) main_call2.v0 main_call2.v1 maximumf,
    StableHlo.nullary main_cst_8 (constant S_ .f32 0x3D4CCCCD#32),
    StableHlo.unary main_cst_8 main_v36 (broadcastInDim S4096x4096 ![] bcast_S_S4096x4096 : (⟨S_, .f32⟩ : BufTy).Contents (Elt F) → (⟨S4096x4096, .f32⟩ : BufTy).Contents (Elt F)),
    StableHlo.binary main_v36 main_v35 main_v37 (mulf : (⟨S4096x4096, .f32⟩ : BufTy).Contents (Elt F) → (⟨S4096x4096, .f32⟩ : BufTy).Contents (Elt F) → (⟨S4096x4096, .f32⟩ : BufTy).Contents (Elt F)),
    StableHlo.binary main_v33 main_v37 main_v38 (addf : (⟨S4096x4096, .f32⟩ : BufTy).Contents (Elt F) → (⟨S4096x4096, .f32⟩ : BufTy).Contents (Elt F) → (⟨S4096x4096, .f32⟩ : BufTy).Contents (Elt F)),
    StableHlo.nullary main_cst_9 (constant S_ .f32 0x3F733333#32),
    StableHlo.unary main_cst_9 main_v39 (broadcastInDim S4096x4096 ![] bcast_S_S4096x4096 : (⟨S_, .f32⟩ : BufTy).Contents (Elt F) → (⟨S4096x4096, .f32⟩ : BufTy).Contents (Elt F)),
    StableHlo.binary main_arg3 main_v39 main_v40 (mulf : (⟨S4096x4096, .f32⟩ : BufTy).Contents (Elt F) → (⟨S4096x4096, .f32⟩ : BufTy).Contents (Elt F) → (⟨S4096x4096, .f32⟩ : BufTy).Contents (Elt F)),
    StableHlo.unary main_v25 main_v41 (Host.absf : (⟨S4096x4096, .f32⟩ : BufTy).Contents (Elt F) → (⟨S4096x4096, .f32⟩ : BufTy).Contents (Elt F)),
    StableHlo.nullary main_cst_10 (constant S_ .f32 0x3D4CCCCD#32),
    StableHlo.unary main_cst_10 main_v42 (broadcastInDim S4096x4096 ![] bcast_S_S4096x4096 : (⟨S_, .f32⟩ : BufTy).Contents (Elt F) → (⟨S4096x4096, .f32⟩ : BufTy).Contents (Elt F)),
    StableHlo.binary main_v42 main_v41 main_v43 (mulf : (⟨S4096x4096, .f32⟩ : BufTy).Contents (Elt F) → (⟨S4096x4096, .f32⟩ : BufTy).Contents (Elt F) → (⟨S4096x4096, .f32⟩ : BufTy).Contents (Elt F)),
    StableHlo.binary main_v40 main_v43 main_v44 (addf : (⟨S4096x4096, .f32⟩ : BufTy).Contents (Elt F) → (⟨S4096x4096, .f32⟩ : BufTy).Contents (Elt F) → (⟨S4096x4096, .f32⟩ : BufTy).Contents (Elt F)) ]

-- seventy-seven binds re-associated: the rewriting under the chain recurses once per statement
set_option maxRecDepth 4096 in
set_option maxHeartbeats 4000000 in
/-- @main is that straight line: the functions' definitions unfolded at their calls and the records at their
    fields, both sides are one chain of host steps once sequencing is reassociated. -/
theorem main_eq (c : Dev nD) : main (F := F) c = seq ops := by
  simp only [main, fn_pad.body, fn_flip.body, fn_flip_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub ..⟩

end Line

section Fold

open Idealize.ShloMosaic.StableHlo

/-- The first seventeen operations: the constant and the padding of the first argument. -/
abbrev opsPad : List (HloOp τ sig (Elt F)) :=
  [ StableHlo.nullary main_c (constantI S_ 32 0#32),
    StableHlo.TRef.unary (.of main_arg0 : StableHlo.TRef sig ⟨S4096x4096, .f32⟩) main_call0.v0 (extractStridedSlice S1x4096 ![0, 0] · slices_S4096x4096_S1x4096_0_0),
    StableHlo.TRef.unary (.of main_arg0 : StableHlo.TRef sig ⟨S4096x4096, .f32⟩) main_call0.v1 (extractStridedSlice S1x4096 ![1, 0] · slices_S4096x4096_S1x4096_1_0),
    StableHlo.TRef.unary main_call0.v1 main_call0.call0.v0 (Host.reverse [0]),
    StableHlo.TRef.binary main_call0.call0.v0 (.of main_arg0 : StableHlo.TRef sig ⟨S4096x4096, .f32⟩) main_call0.v3 (fun a b => concatenate S4097x4096 0 [⟨S1x4096, a⟩, ⟨S4096x4096, b⟩] concatenates_S1x4096_S4096x4096_S4097x4096_d0),
    StableHlo.TRef.unary main_call0.v3 main_call0.v4 (extractStridedSlice S1x4096 ![4096, 0] · slices_S4097x4096_S1x4096_4096_0),
    StableHlo.TRef.unary main_call0.v3 main_call0.v5 (extractStridedSlice S1x4096 ![4095, 0] · slices_S4097x4096_S1x4096_4095_0),
    StableHlo.TRef.unary main_call0.v5 main_call0.call1.v0 (Host.reverse [0]),
    StableHlo.TRef.binary main_call0.v3 main_call0.call1.v0 main_call0.v7 (fun a b => concatenate S4098x4096 0 [⟨S4097x4096, a⟩, ⟨S1x4096, b⟩] concatenates_S4097x4096_S1x4096_S4098x4096_d0),
    StableHlo.TRef.unary main_call0.v7 main_call0.v8 (extractStridedSlice S4098x1 ![0, 0] · slices_S4098x4096_S4098x1_0_0),
    StableHlo.TRef.unary main_call0.v7 main_call0.v9 (extractStridedSlice S4098x1 ![0, 1] · slices_S4098x4096_S4098x1_0_1),
    StableHlo.TRef.unary main_call0.v9 main_call0.call2.v0 (Host.reverse [1]),
    StableHlo.TRef.binary main_call0.call2.v0 main_call0.v7 main_call0.v11 (fun a b => concatenate S4098x4097 1 [⟨S4098x1, a⟩, ⟨S4098x4096, b⟩] concatenates_S4098x1_S4098x4096_S4098x4097_d1),
    StableHlo.TRef.unary main_call0.v11 main_call0.v12 (extractStridedSlice S4098x1 ![0, 4096] · slices_S4098x4097_S4098x1_0_4096),
    StableHlo.TRef.unary main_call0.v11 main_call0.v13 (extractStridedSlice S4098x1 ![0, 4095] · slices_S4098x4097_S4098x1_0_4095),
    StableHlo.TRef.unary main_call0.v13 main_call0.call3.v0 (Host.reverse [1]),
    StableHlo.TRef.binary main_call0.v11 main_call0.call3.v0 main_call0.v15 (fun a b => concatenate S4098x4098 1 [⟨S4098x4097, a⟩, ⟨S4098x1, b⟩] concatenates_S4098x4097_S4098x1_S4098x4098_d1) ]

/-- The other sixty: the four neighbours' sum, the new voltage, and the three new concentrations. -/
abbrev opsRest : List (HloOp τ sig (Elt F)) :=
  [ StableHlo.unary main_v0 main_v1 ((extractStridedSlice S4096x4096 ![2, 1] · slices_S4098x4098_S4096x4096_2_1) : (⟨S4098x4098, .f32⟩ : BufTy).Contents (Elt F) → (⟨S4096x4096, .f32⟩ : BufTy).Contents (Elt F)),
    StableHlo.unary main_v0 main_v2 ((extractStridedSlice S4096x4096 ![0, 1] · slices_S4098x4098_S4096x4096_0_1) : (⟨S4098x4098, .f32⟩ : BufTy).Contents (Elt F) → (⟨S4096x4096, .f32⟩ : BufTy).Contents (Elt F)),
    StableHlo.binary main_v1 main_v2 main_v3 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v4 ((extractStridedSlice S4096x4096 ![1, 2] · slices_S4098x4098_S4096x4096_1_2) : (⟨S4098x4098, .f32⟩ : BufTy).Contents (Elt F) → (⟨S4096x4096, .f32⟩ : BufTy).Contents (Elt F)),
    StableHlo.binary main_v3 main_v4 main_v5 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v6 ((extractStridedSlice S4096x4096 ![1, 0] · slices_S4098x4098_S4096x4096_1_0) : (⟨S4098x4098, .f32⟩ : BufTy).Contents (Elt F) → (⟨S4096x4096, .f32⟩ : BufTy).Contents (Elt F)),
    StableHlo.binary main_v5 main_v6 main_v7 (addf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x40800000#32),
    StableHlo.unary main_cst main_v8 (broadcastInDim S4096x4096 ![] bcast_S_S4096x4096 : (⟨S_, .f32⟩ : BufTy).Contents (Elt F) → (⟨S4096x4096, .f32⟩ : BufTy).Contents (Elt F)),
    StableHlo.binary main_v8 main_arg0 main_v9 (mulf : (⟨S4096x4096, .f32⟩ : BufTy).Contents (Elt F) → (⟨S4096x4096, .f32⟩ : BufTy).Contents (Elt F) → (⟨S4096x4096, .f32⟩ : BufTy).Contents (Elt F)),
    StableHlo.binary main_v7 main_v9 main_v10 (subf : (⟨S4096x4096, .f32⟩ : BufTy).Contents (Elt F) → (⟨S4096x4096, .f32⟩ : BufTy).Contents (Elt F) → (⟨S4096x4096, .f32⟩ : BufTy).Contents (Elt F)),
    StableHlo.nullary main_cst_0 (constant S_ .f32 0x3F000000#32),
    StableHlo.unary main_cst_0 main_v11 (broadcastInDim S4096x4096 ![] bcast_S_S4096x4096 : (⟨S_, .f32⟩ : BufTy).Contents (Elt F) → (⟨S4096x4096, .f32⟩ : BufTy).Contents (Elt F)),
    StableHlo.binary main_v11 main_v10 main_v12 (mulf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x3DCCCCCD#32),
    StableHlo.unary main_cst_1 main_v13 (broadcastInDim S4096x4096 ![] bcast_S_S4096x4096 : (⟨S_, .f32⟩ : BufTy).Contents (Elt F) → (⟨S4096x4096, .f32⟩ : BufTy).Contents (Elt F)),
    StableHlo.binary main_v13 main_arg1 main_v14 (mulf : (⟨S4096x4096, .f32⟩ : BufTy).Contents (Elt F) → (⟨S4096x4096, .f32⟩ : BufTy).Contents (Elt F) → (⟨S4096x4096, .f32⟩ : BufTy).Contents (Elt F)),
    StableHlo.binary main_v12 main_v14 main_v15 (addf : (⟨S4096x4096, .f32⟩ : BufTy).Contents (Elt F) → (⟨S4096x4096, .f32⟩ : BufTy).Contents (Elt F) → (⟨S4096x4096, .f32⟩ : BufTy).Contents (Elt F)),
    StableHlo.nullary main_cst_2 (constant S_ .f32 0x3D4CCCCD#32),
    StableHlo.unary main_cst_2 main_v16 (broadcastInDim S4096x4096 ![] bcast_S_S4096x4096 : (⟨S_, .f32⟩ : BufTy).Contents (Elt F) → (⟨S4096x4096, .f32⟩ : BufTy).Contents (Elt F)),
    StableHlo.binary main_v16 main_arg2 main_v17 (mulf : (⟨S4096x4096, .f32⟩ : BufTy).Contents (Elt F) → (⟨S4096x4096, .f32⟩ : BufTy).Contents (Elt F) → (⟨S4096x4096, .f32⟩ : BufTy).Contents (Elt F)),
    StableHlo.binary main_v15 main_v17 main_v18 (subf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x3DA3D70A#32),
    StableHlo.unary main_cst_3 main_v19 (broadcastInDim S4096x4096 ![] bcast_S_S4096x4096 : (⟨S_, .f32⟩ : BufTy).Contents (Elt F) → (⟨S4096x4096, .f32⟩ : BufTy).Contents (Elt F)),
    StableHlo.binary main_v19 main_arg3 main_v20 (mulf : (⟨S4096x4096, .f32⟩ : BufTy).Contents (Elt F) → (⟨S4096x4096, .f32⟩ : BufTy).Contents (Elt F) → (⟨S4096x4096, .f32⟩ : BufTy).Contents (Elt F)),
    StableHlo.binary main_v18 main_v20 main_v21 (addf : (⟨S4096x4096, .f32⟩ : BufTy).Contents (Elt F) → (⟨S4096x4096, .f32⟩ : BufTy).Contents (Elt F) → (⟨S4096x4096, .f32⟩ : BufTy).Contents (Elt F)),
    StableHlo.nullary main_cst_4 (constant S_ .f32 0x3DCCCCCD#32),
    StableHlo.unary main_cst_4 main_v22 (broadcastInDim S4096x4096 ![] bcast_S_S4096x4096 : (⟨S_, .f32⟩ : BufTy).Contents (Elt F) → (⟨S4096x4096, .f32⟩ : BufTy).Contents (Elt F)),
    StableHlo.binary main_v22 main_v21 main_v23 (mulf : (⟨S4096x4096, .f32⟩ : BufTy).Contents (Elt F) → (⟨S4096x4096, .f32⟩ : BufTy).Contents (Elt F) → (⟨S4096x4096, .f32⟩ : BufTy).Contents (Elt F)),
    StableHlo.binary main_arg0 main_v23 main_v24 (addf : (⟨S4096x4096, .f32⟩ : BufTy).Contents (Elt F) → (⟨S4096x4096, .f32⟩ : BufTy).Contents (Elt F) → (⟨S4096x4096, .f32⟩ : BufTy).Contents (Elt F)),
    StableHlo.unary main_v24 main_v25 (Host.tanh : (⟨S4096x4096, .f32⟩ : BufTy).Contents (Elt F) → (⟨S4096x4096, .f32⟩ : BufTy).Contents (Elt F)),
    StableHlo.nullary main_cst_5 (constant S_ .f32 0x3F733333#32),
    StableHlo.unary main_cst_5 main_v26 (broadcastInDim S4096x4096 ![] bcast_S_S4096x4096 : (⟨S_, .f32⟩ : BufTy).Contents (Elt F) → (⟨S4096x4096, .f32⟩ : BufTy).Contents (Elt F)),
    StableHlo.binary main_arg1 main_v26 main_v27 (mulf : (⟨S4096x4096, .f32⟩ : BufTy).Contents (Elt F) → (⟨S4096x4096, .f32⟩ : BufTy).Contents (Elt F) → (⟨S4096x4096, .f32⟩ : BufTy).Contents (Elt F)),
    StableHlo.TRef.nullary main_call1.cst (constant S_ .f32 0x00000000#32),
    StableHlo.TRef.unary main_call1.cst main_call1.v0 (broadcastInDim S4096x4096 ![] bcast_S_S4096x4096),
    StableHlo.TRef.binary (.of main_v25 : StableHlo.TRef sig ⟨S4096x4096, .f32⟩) main_call1.v0 main_call1.v1 maximumf,
    StableHlo.nullary main_cst_6 (constant S_ .f32 0x3D4CCCCD#32),
    StableHlo.unary main_cst_6 main_v29 (broadcastInDim S4096x4096 ![] bcast_S_S4096x4096 : (⟨S_, .f32⟩ : BufTy).Contents (Elt F) → (⟨S4096x4096, .f32⟩ : BufTy).Contents (Elt F)),
    StableHlo.binary main_v29 main_v28 main_v30 (mulf : (⟨S4096x4096, .f32⟩ : BufTy).Contents (Elt F) → (⟨S4096x4096, .f32⟩ : BufTy).Contents (Elt F) → (⟨S4096x4096, .f32⟩ : BufTy).Contents (Elt F)),
    StableHlo.binary main_v27 main_v30 main_v31 (addf : (⟨S4096x4096, .f32⟩ : BufTy).Contents (Elt F) → (⟨S4096x4096, .f32⟩ : BufTy).Contents (Elt F) → (⟨S4096x4096, .f32⟩ : BufTy).Contents (Elt F)),
    StableHlo.nullary main_cst_7 (constant S_ .f32 0x3F733333#32),
    StableHlo.unary main_cst_7 main_v32 (broadcastInDim S4096x4096 ![] bcast_S_S4096x4096 : (⟨S_, .f32⟩ : BufTy).Contents (Elt F) → (⟨S4096x4096, .f32⟩ : BufTy).Contents (Elt F)),
    StableHlo.binary main_arg2 main_v32 main_v33 (mulf : (⟨S4096x4096, .f32⟩ : BufTy).Contents (Elt F) → (⟨S4096x4096, .f32⟩ : BufTy).Contents (Elt F) → (⟨S4096x4096, .f32⟩ : BufTy).Contents (Elt F)),
    StableHlo.unary main_v25 main_v34 (Host.negf : (⟨S4096x4096, .f32⟩ : BufTy).Contents (Elt F) → (⟨S4096x4096, .f32⟩ : BufTy).Contents (Elt F)),
    StableHlo.TRef.nullary main_call2.cst (constant S_ .f32 0x00000000#32),
    StableHlo.TRef.unary main_call2.cst main_call2.v0 (broadcastInDim S4096x4096 ![] bcast_S_S4096x4096),
    StableHlo.TRef.binary (.of main_v34 : StableHlo.TRef sig ⟨S4096x4096, .f32⟩) main_call2.v0 main_call2.v1 maximumf,
    StableHlo.nullary main_cst_8 (constant S_ .f32 0x3D4CCCCD#32),
    StableHlo.unary main_cst_8 main_v36 (broadcastInDim S4096x4096 ![] bcast_S_S4096x4096 : (⟨S_, .f32⟩ : BufTy).Contents (Elt F) → (⟨S4096x4096, .f32⟩ : BufTy).Contents (Elt F)),
    StableHlo.binary main_v36 main_v35 main_v37 (mulf : (⟨S4096x4096, .f32⟩ : BufTy).Contents (Elt F) → (⟨S4096x4096, .f32⟩ : BufTy).Contents (Elt F) → (⟨S4096x4096, .f32⟩ : BufTy).Contents (Elt F)),
    StableHlo.binary main_v33 main_v37 main_v38 (addf : (⟨S4096x4096, .f32⟩ : BufTy).Contents (Elt F) → (⟨S4096x4096, .f32⟩ : BufTy).Contents (Elt F) → (⟨S4096x4096, .f32⟩ : BufTy).Contents (Elt F)),
    StableHlo.nullary main_cst_9 (constant S_ .f32 0x3F733333#32),
    StableHlo.unary main_cst_9 main_v39 (broadcastInDim S4096x4096 ![] bcast_S_S4096x4096 : (⟨S_, .f32⟩ : BufTy).Contents (Elt F) → (⟨S4096x4096, .f32⟩ : BufTy).Contents (Elt F)),
    StableHlo.binary main_arg3 main_v39 main_v40 (mulf : (⟨S4096x4096, .f32⟩ : BufTy).Contents (Elt F) → (⟨S4096x4096, .f32⟩ : BufTy).Contents (Elt F) → (⟨S4096x4096, .f32⟩ : BufTy).Contents (Elt F)),
    StableHlo.unary main_v25 main_v41 (Host.absf : (⟨S4096x4096, .f32⟩ : BufTy).Contents (Elt F) → (⟨S4096x4096, .f32⟩ : BufTy).Contents (Elt F)),
    StableHlo.nullary main_cst_10 (constant S_ .f32 0x3D4CCCCD#32),
    StableHlo.unary main_cst_10 main_v42 (broadcastInDim S4096x4096 ![] bcast_S_S4096x4096 : (⟨S_, .f32⟩ : BufTy).Contents (Elt F) → (⟨S4096x4096, .f32⟩ : BufTy).Contents (Elt F)),
    StableHlo.binary main_v42 main_v41 main_v43 (mulf : (⟨S4096x4096, .f32⟩ : BufTy).Contents (Elt F) → (⟨S4096x4096, .f32⟩ : BufTy).Contents (Elt F) → (⟨S4096x4096, .f32⟩ : BufTy).Contents (Elt F)),
    StableHlo.binary main_v40 main_v43 main_v44 (addf : (⟨S4096x4096, .f32⟩ : BufTy).Contents (Elt F) → (⟨S4096x4096, .f32⟩ : BufTy).Contents (Elt F) → (⟨S4096x4096, .f32⟩ : BufTy).Contents (Elt F)) ]

theorem ops_split : (ops : List (HloOp τ sig (Elt F))) = opsPad ++ opsRest := rfl

/-- Running one line after another folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- After the padding's operations its result buffer holds the reflect-padded first argument: each operation's result
    read back at its own buffer, the transports between a typed reference's value type and its buffer's type being along
    equations of a type with itself, hence the identity. -/
theorem pad_v0 (V : Valuation τ sig (Elt F)) :
    after opsPad V (main_v0 : DevRef τ sig) = RefTerm.pad (V (main_arg0 : DevRef τ sig)) := by
  after_results
  simp only [TRef.ofBuf, TRef.toBuf, cast_cast, cast_eq]
  rfl

theorem pad_arg0 (V : Valuation τ sig (Elt F)) :
    after opsPad V (main_arg0 : DevRef τ sig) = V (main_arg0 : DevRef τ sig) := by
  after_results
theorem pad_arg1 (V : Valuation τ sig (Elt F)) :
    after opsPad V (main_arg1 : DevRef τ sig) = V (main_arg1 : DevRef τ sig) := by
  after_results
theorem pad_arg2 (V : Valuation τ sig (Elt F)) :
    after opsPad V (main_arg2 : DevRef τ sig) = V (main_arg2 : DevRef τ sig) := by
  after_results
theorem pad_arg3 (V : Valuation τ sig (Elt F)) :
    after opsPad V (main_arg3 : DevRef τ sig) = V (main_arg3 : DevRef τ sig) := by
  after_results

end Fold

section Rest

open Idealize.ShloMosaic.StableHlo

/-- Over contents whose padded buffer holds the padded first argument, the sixty operations leave `main_v25` at `RefTerm.nv`. -/
theorem rest_nv (W : Valuation τ sig (Elt F)) (hP : W (main_v0 : DevRef τ sig) = RefTerm.pad (W (main_arg0 : DevRef τ sig))) :
    after opsRest W (main_v25 : DevRef τ sig) = RefTerm.nv (W (main_arg0 : DevRef τ sig)) (W (main_arg1 : DevRef τ sig)) (W (main_arg2 : DevRef τ sig)) (W (main_arg3 : DevRef τ sig)) := by
  after_results_simp
  rw [hP]
  rfl

/-- Over contents whose padded buffer holds the padded first argument, the sixty operations leave `main_v31` at `RefTerm.ns`. -/
theorem rest_ns (W : Valuation τ sig (Elt F)) (hP : W (main_v0 : DevRef τ sig) = RefTerm.pad (W (main_arg0 : DevRef τ sig))) :
    after opsRest W (main_v31 : DevRef τ sig) = RefTerm.ns (W (main_arg0 : DevRef τ sig)) (W (main_arg1 : DevRef τ sig)) (W (main_arg2 : DevRef τ sig)) (W (main_arg3 : DevRef τ sig)) := by
  after_results_simp
  simp only [TRef.ofBuf, TRef.toBuf, cast_cast, cast_eq]
  rw [hP]
  rfl

/-- Over contents whose padded buffer holds the padded first argument, the sixty operations leave `main_v38` at `RefTerm.np`. -/
theorem rest_np (W : Valuation τ sig (Elt F)) (hP : W (main_v0 : DevRef τ sig) = RefTerm.pad (W (main_arg0 : DevRef τ sig))) :
    after opsRest W (main_v38 : DevRef τ sig) = RefTerm.np (W (main_arg0 : DevRef τ sig)) (W (main_arg1 : DevRef τ sig)) (W (main_arg2 : DevRef τ sig)) (W (main_arg3 : DevRef τ sig)) := by
  after_results_simp
  simp only [TRef.ofBuf, TRef.toBuf, cast_cast, cast_eq]
  rw [hP]
  rfl

/-- Over contents whose padded buffer holds the padded first argument, the sixty operations leave `main_v44` at `RefTerm.nc`. -/
theorem rest_nc (W : Valuation τ sig (Elt F)) (hP : W (main_v0 : DevRef τ sig) = RefTerm.pad (W (main_arg0 : DevRef τ sig))) :
    after opsRest W (main_v44 : DevRef τ sig) = RefTerm.nc (W (main_arg0 : DevRef τ sig)) (W (main_arg1 : DevRef τ sig)) (W (main_arg2 : DevRef τ sig)) (W (main_arg3 : DevRef τ sig)) := by
  after_results_simp
  rw [hP]
  rfl

theorem rest_arg0 (W : Valuation τ sig (Elt F)) :
    after opsRest W (main_arg0 : DevRef τ sig) = W (main_arg0 : DevRef τ sig) := by
  after_results_simp
theorem rest_arg1 (W : Valuation τ sig (Elt F)) :
    after opsRest W (main_arg1 : DevRef τ sig) = W (main_arg1 : DevRef τ sig) := by
  after_results_simp
theorem rest_arg2 (W : Valuation τ sig (Elt F)) :
    after opsRest W (main_arg2 : DevRef τ sig) = W (main_arg2 : DevRef τ sig) := by
  after_results_simp
theorem rest_arg3 (W : Valuation τ sig (Elt F)) :
    after opsRest W (main_arg3 : DevRef τ sig) = W (main_arg3 : DevRef τ sig) := by
  after_results_simp

/-- The whole line leaves `main_v25` at `RefTerm.nv` of the four arguments. -/
theorem line_nv (V : Valuation τ sig (Elt F)) :
    after ops V (main_v25 : DevRef τ sig) = RefTerm.nv (V (main_arg0 : DevRef τ sig)) (V (main_arg1 : DevRef τ sig)) (V (main_arg2 : DevRef τ sig)) (V (main_arg3 : DevRef τ sig)) := by
  have h := rest_nv (after opsPad V) (by rw [pad_v0, pad_arg0])
  rw [pad_arg0, pad_arg1, pad_arg2, pad_arg3] at h
  rw [ops_split, after_append]
  exact h

/-- The whole line leaves `main_v31` at `RefTerm.ns` of the four arguments. -/
theorem line_ns (V : Valuation τ sig (Elt F)) :
    after ops V (main_v31 : DevRef τ sig) = RefTerm.ns (V (main_arg0 : DevRef τ sig)) (V (main_arg1 : DevRef τ sig)) (V (main_arg2 : DevRef τ sig)) (V (main_arg3 : DevRef τ sig)) := by
  have h := rest_ns (after opsPad V) (by rw [pad_v0, pad_arg0])
  rw [pad_arg0, pad_arg1, pad_arg2, pad_arg3] at h
  rw [ops_split, after_append]
  exact h

/-- The whole line leaves `main_v38` at `RefTerm.np` of the four arguments. -/
theorem line_np (V : Valuation τ sig (Elt F)) :
    after ops V (main_v38 : DevRef τ sig) = RefTerm.np (V (main_arg0 : DevRef τ sig)) (V (main_arg1 : DevRef τ sig)) (V (main_arg2 : DevRef τ sig)) (V (main_arg3 : DevRef τ sig)) := by
  have h := rest_np (after opsPad V) (by rw [pad_v0, pad_arg0])
  rw [pad_arg0, pad_arg1, pad_arg2, pad_arg3] at h
  rw [ops_split, after_append]
  exact h

/-- The whole line leaves `main_v44` at `RefTerm.nc` of the four arguments. -/
theorem line_nc (V : Valuation τ sig (Elt F)) :
    after ops V (main_v44 : DevRef τ sig) = RefTerm.nc (V (main_arg0 : DevRef τ sig)) (V (main_arg1 : DevRef τ sig)) (V (main_arg2 : DevRef τ sig)) (V (main_arg3 : DevRef τ sig)) := by
  have h := rest_nc (after opsPad V) (by rw [pad_v0, pad_arg0])
  rw [pad_arg0, pad_arg1, pad_arg2, pad_arg3] at h
  rw [ops_split, after_append]
  exact h

theorem line_arg0 (V : Valuation τ sig (Elt F)) :
    after ops V (main_arg0 : DevRef τ sig) = V (main_arg0 : DevRef τ sig) := by
  rw [ops_split, after_append, rest_arg0, pad_arg0]
theorem line_arg1 (V : Valuation τ sig (Elt F)) :
    after ops V (main_arg1 : DevRef τ sig) = V (main_arg1 : DevRef τ sig) := by
  rw [ops_split, after_append, rest_arg1, pad_arg1]
theorem line_arg2 (V : Valuation τ sig (Elt F)) :
    after ops V (main_arg2 : DevRef τ sig) = V (main_arg2 : DevRef τ sig) := by
  rw [ops_split, after_append, rest_arg2, pad_arg2]
theorem line_arg3 (V : Valuation τ sig (Elt F)) :
    after ops V (main_arg3 : DevRef τ sig) = V (main_arg3 : DevRef τ sig) := by
  rw [ops_split, after_append, rest_arg3, pad_arg3]

end Rest

/-- The reference's run with every result named: the composed terms of the arguments. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v25) = RefTerm.nv (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread nD τ).loc main_v31) = RefTerm.ns (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread nD τ).loc main_v38) = RefTerm.np (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread nD τ).loc main_v44) = RefTerm.nc (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (defs (F := F)) _ _).mono (fun _ h c => ⟨(h c main_v25).trans (line_nv _), (h c main_v31).trans (line_ns _),
      (h c main_v38).trans (line_np _), (h c main_v44).trans (line_nc _),
      (h c main_arg0).trans (line_arg0 _), (h c main_arg1).trans (line_arg1 _),
      (h c main_arg2).trans (line_arg2 _), (h c main_arg3).trans (line_arg3 _)⟩)
    (StableHlo.run_seq scopedRefs_eq scopedSems_eq defs main (fun _ => ops) main_eq (fun _ => ops_sub) m ρ)

end Cert.ReferenceIdeal.Hand

end
-- ==== Proof.RefRead.lean ====
/-
  The reference's terms are the specification's arrays: read at an index, the reflect-padded array
  at (r + 1, c + 1) is the array at (r, c), at row 0 it is row 1 and at row 4097 row 4094, and the same for
  columns; so the four slices of it are the four reflected neighbours, and the rest is pointwise.
-/
import proofs.«161542_j59382217834966_1_alg».proof.Proof.RefTerm
import proofs.«161542_j59382217834966_1_alg».proof.Proof.Spec
import Idealize.ShloMosaic.Lib.Pipeline.Value
import Idealize.ShloMosaic.Lib.ValueLayout
import Idealize.ShloMosaic.PureOps.Ideal.Laws

noncomputable section

namespace Cert.ReferenceIdeal.RefRead

open Idealize.ShloMosaic Idealize.ShloMosaic.ValueIdx Cert.ReferenceIdeal

/-! ## Reversing an axis of extent one -/

/-- A one-row array reversed along its rows is itself: the only row index is its own mirror image. -/
theorem reverse_row {α : Type} (x : S1x4096.Idx → α) : Host.reverse (s := S1x4096) [0] x = x := by
  funext j
  show x (fun a => if a ∈ [0] then (j a).rev else j a) = x j
  refine congrArg x (funext fun a => ?_)
  split
  · next h =>
    have ha : a = 0 := List.mem_singleton.1 h
    subst ha
    apply Fin.ext
    rw [Fin.val_rev]
    have hlt : (j 0).val < 1 := (j 0).isLt
    show 1 - ((j 0).val + 1) = (j 0).val
    omega
  · rfl

/-- A one-column array reversed along its columns is itself. -/
theorem reverse_col {α : Type} (x : S4098x1.Idx → α) : Host.reverse (s := S4098x1) [1] x = x := by
  funext j
  show x (fun a => if a ∈ [1] then (j a).rev else j a) = x j
  refine congrArg x (funext fun a => ?_)
  split
  · next h =>
    have ha : a = 1 := List.mem_singleton.1 h
    subst ha
    apply Fin.ext
    rw [Fin.val_rev]
    have hlt : (j 1).val < 1 := (j 1).isLt
    show 1 - ((j 1).val + 1) = (j 1).val
    omega
  · rfl

/-! ## The reflection of a padded coordinate -/

/-- Where coordinate R of the padded axis (4098 long) reads the unpadded one (4096 long): one less, but 0 reads 1
    and 4097 reads 4094. -/
def refl1 (R : Fin 4098) : Fin 4096 :=
  if h0 : R.val = 0 then ⟨1, by decide⟩
  else if h1 : R.val = 4097 then ⟨4094, by decide⟩
  else ⟨R.val - 1, by have := R.isLt; omega⟩

theorem refl1_val (R : Fin 4098) :
    (refl1 R).val = if R.val = 0 then 1 else if R.val = 4097 then 4094 else R.val - 1 := by
  unfold refl1
  split
  · rfl
  · split <;> rfl

/-! ## The padded array at an index, one concatenation at a time -/

/-- Row R of the array with its row 1 put in front: row 1 at R = 0, row R - 1 after. -/
theorem padTop_apply (v : FVec Ideal S4096x4096 .f32) (R : Fin 4097) (C : Fin 4096) (k : Fin 4096)
    (hk : k.val = if R.val = 0 then 1 else R.val - 1) :
    RefTerm.padTop (F := Ideal) v (ix2 R C) = v (ix2 k C) := by
  unfold RefTerm.padTop
  by_cases h : R.val = 0
  · rw [if_pos h] at hk
    refine (concatenate_pair_apply_left (t := S4097x4096) (s₁ := S1x4096) (s₂ := S4096x4096) (0 : Fin 2) _ _ _ _ rfl
      (ix2 (0 : Fin 1) C) (by
        intro b
        match b with
        | ⟨0, _⟩ => exact h.symm
        | ⟨1, _⟩ => rfl)).trans ?_
    rw [reverse_row]
    exact slice2_axis0_apply 1 v _ (0 : Fin 1) C k (by rw [hk]; rfl)
  · rw [if_neg h] at hk
    exact concatenate_pair_apply_right (t := S4097x4096) (s₁ := S1x4096) (s₂ := S4096x4096) (0 : Fin 2) _ _ _ _ rfl rfl
      (ix2 k C) (by
        intro b hb
        match b with
        | ⟨0, _⟩ => exact absurd rfl hb
        | ⟨1, _⟩ => rfl) (by
        show k.val + 1 = R.val
        omega)

/-- Row R of the row-padded array is row refl1 R of the array. -/
theorem padRows_apply (v : FVec Ideal S4096x4096 .f32) (R : Fin 4098) (C : Fin 4096) :
    RefTerm.padRows (F := Ideal) v (ix2 R C) = v (ix2 (refl1 R) C) := by
  unfold RefTerm.padRows
  have hR := refl1_val R
  by_cases h : R.val < 4097
  · refine (concatenate_pair_apply_left (t := S4098x4096) (s₁ := S4097x4096) (s₂ := S1x4096) (0 : Fin 2) _ _ _ _ rfl
      (ix2 (⟨R.val, h⟩ : Fin 4097) C) (by
        intro b
        match b with
        | ⟨0, _⟩ => rfl
        | ⟨1, _⟩ => rfl)).trans ?_
    refine padTop_apply v _ C _ ?_
    show (refl1 R).val = if R.val = 0 then 1 else R.val - 1
    rw [hR]
    by_cases h0 : R.val = 0
    · rw [if_pos h0, if_pos h0]
    · rw [if_neg h0, if_neg h0, if_neg (by omega)]
  · have h97 : R.val = 4097 := by have := R.isLt; omega
    refine (concatenate_pair_apply_right (t := S4098x4096) (s₁ := S4097x4096) (s₂ := S1x4096) (0 : Fin 2) _ _ _ _ rfl rfl
      (ix2 (0 : Fin 1) C) (by
        intro b hb
        match b with
        | ⟨0, _⟩ => exact absurd rfl hb
        | ⟨1, _⟩ => rfl) (by
        show 0 + 4097 = R.val
        omega)).trans ?_
    rw [reverse_row]
    refine (slice2_axis0_apply 4095 (RefTerm.padTop (F := Ideal) v) _ (0 : Fin 1) C (⟨4095, by decide⟩ : Fin 4097) rfl).trans ?_
    refine padTop_apply v _ C _ ?_
    show (refl1 R).val = if 4095 = 0 then 1 else 4095 - 1
    rw [hR, if_neg (by omega), if_pos h97]
    rfl

/-- Column C of the row-padded array with its column 1 put in front: column 1 at C = 0, column C - 1 after. -/
theorem padLeft_apply (v : FVec Ideal S4096x4096 .f32) (R : Fin 4098) (C : Fin 4097) (k : Fin 4096)
    (hk : k.val = if C.val = 0 then 1 else C.val - 1) :
    RefTerm.padLeft (F := Ideal) v (ix2 R C) = RefTerm.padRows (F := Ideal) v (ix2 R k) := by
  unfold RefTerm.padLeft
  by_cases h : C.val = 0
  · rw [if_pos h] at hk
    refine (concatenate_pair_apply_left (t := S4098x4097) (s₁ := S4098x1) (s₂ := S4098x4096) (1 : Fin 2) _ _ _ _ rfl
      (ix2 R (0 : Fin 1)) (by
        intro b
        match b with
        | ⟨0, _⟩ => rfl
        | ⟨1, _⟩ => exact h.symm)).trans ?_
    rw [reverse_col]
    exact slice2_axis1_apply 1 (RefTerm.padRows (F := Ideal) v) _ R (0 : Fin 1) k (by rw [hk]; rfl)
  · rw [if_neg h] at hk
    exact concatenate_pair_apply_right (t := S4098x4097) (s₁ := S4098x1) (s₂ := S4098x4096) (1 : Fin 2) _ _ _ _ rfl rfl
      (ix2 R k) (by
        intro b hb
        match b with
        | ⟨0, _⟩ => rfl
        | ⟨1, _⟩ => exact absurd rfl hb) (by
        show k.val + 1 = C.val
        omega)

/-- Column C of the padded array is column refl1 C of the row-padded array. -/
theorem padCols_apply (v : FVec Ideal S4096x4096 .f32) (R : Fin 4098) (C : Fin 4098) :
    RefTerm.pad (F := Ideal) v (ix2 R C) = RefTerm.padRows (F := Ideal) v (ix2 R (refl1 C)) := by
  unfold RefTerm.pad
  have hC := refl1_val C
  by_cases h : C.val < 4097
  · refine (concatenate_pair_apply_left (t := S4098x4098) (s₁ := S4098x4097) (s₂ := S4098x1) (1 : Fin 2) _ _ _ _ rfl
      (ix2 R (⟨C.val, h⟩ : Fin 4097)) (by
        intro b
        match b with
        | ⟨0, _⟩ => rfl
        | ⟨1, _⟩ => rfl)).trans ?_
    refine padLeft_apply v R _ _ ?_
    show (refl1 C).val = if C.val = 0 then 1 else C.val - 1
    rw [hC]
    by_cases h0 : C.val = 0
    · rw [if_pos h0, if_pos h0]
    · rw [if_neg h0, if_neg h0, if_neg (by omega)]
  · have h97 : C.val = 4097 := by have := C.isLt; omega
    refine (concatenate_pair_apply_right (t := S4098x4098) (s₁ := S4098x4097) (s₂ := S4098x1) (1 : Fin 2) _ _ _ _ rfl rfl
      (ix2 R (0 : Fin 1)) (by
        intro b hb
        match b with
        | ⟨0, _⟩ => rfl
        | ⟨1, _⟩ => exact absurd rfl hb) (by
        show 0 + 4097 = C.val
        omega)).trans ?_
    rw [reverse_col]
    refine (slice2_axis1_apply 4095 (RefTerm.padLeft (F := Ideal) v) _ R (0 : Fin 1) (⟨4095, by decide⟩ : Fin 4097) rfl).trans ?_
    refine padLeft_apply v R _ _ ?_
    show (refl1 C).val = if 4095 = 0 then 1 else 4095 - 1
    rw [hC, if_neg (by omega), if_pos h97]
    rfl

/-- The reflect-padded array at (R, C) is the array at the reflected coordinates. -/
theorem pad_apply (v : FVec Ideal S4096x4096 .f32) (R C : Fin 4098) :
    RefTerm.pad (F := Ideal) v (ix2 R C) = v (ix2 (refl1 R) (refl1 C)) :=
  (padCols_apply v R C).trans (padRows_apply v R (refl1 C))

/-! ## The four neighbours -/

/-- A 4096 × 4096 window of the padded array at offsets (o0, o1), read at (r, q): the array at the reflections of
    (o0 + r, o1 + q). -/
theorem pad_slice (v : FVec Ideal S4096x4096 .f32) (o0 o1 : Nat) (h : S4098x4098.Slices ![o0, o1] S4096x4096)
    (r q k0 k1 : Fin 4096)
    (h0 : k0.val = if o0 + r.val = 0 then 1 else if o0 + r.val = 4097 then 4094 else o0 + r.val - 1)
    (h1 : k1.val = if o1 + q.val = 0 then 1 else if o1 + q.val = 4097 then 4094 else o1 + q.val - 1) :
    extractStridedSlice S4096x4096 ![o0, o1] (RefTerm.pad (F := Ideal) v) h (ix2 r q) = v (ix2 k0 k1) := by
  refine (extractStridedSlice_apply _ _ h (ix2 r q)
    (ix2 (⟨o0 + r.val, Nat.lt_of_lt_of_le (Nat.add_lt_add_left r.isLt o0) (h.2 0)⟩ : Fin 4098)
      (⟨o1 + q.val, Nat.lt_of_lt_of_le (Nat.add_lt_add_left q.isLt o1) (h.2 1)⟩ : Fin 4098)) (by
      intro a
      match a with
      | ⟨0, _⟩ => rfl
      | ⟨1, _⟩ => rfl)).trans ?_
  rw [pad_apply]
  have e0 : refl1 ⟨o0 + r.val, Nat.lt_of_lt_of_le (Nat.add_lt_add_left r.isLt o0) (h.2 0)⟩ = k0 :=
    Fin.ext (by rw [refl1_val, h0])
  have e1 : refl1 ⟨o1 + q.val, Nat.lt_of_lt_of_le (Nat.add_lt_add_left q.isLt o1) (h.2 1)⟩ = k1 :=
    Fin.ext (by rw [refl1_val, h1])
  rw [e0, e1]

/-- The reflected neighbours as the window offsets meet them. -/
theorem next_shift (r : Fin 4096) :
    (Spec.next r).val = if 2 + r.val = 0 then 1 else if 2 + r.val = 4097 then 4094 else 2 + r.val - 1 := by
  rw [Spec.next_val]
  have := r.isLt
  by_cases h : r.val = 4095
  · rw [if_pos h, if_neg (by omega), if_pos (by omega)]
  · rw [if_neg h, if_neg (by omega), if_neg (by omega)]; omega

theorem prev_shift (r : Fin 4096) :
    (Spec.prev r).val = if 0 + r.val = 0 then 1 else if 0 + r.val = 4097 then 4094 else 0 + r.val - 1 := by
  rw [Spec.prev_val]
  have := r.isLt
  by_cases h : r.val = 0
  · rw [if_pos h, if_pos (by omega)]
  · rw [if_neg h, if_neg (by omega), if_neg (by omega)]; omega

theorem self_shift (r : Fin 4096) :
    r.val = if 1 + r.val = 0 then 1 else if 1 + r.val = 4097 then 4094 else 1 + r.val - 1 := by
  have := r.isLt
  rw [if_neg (by omega), if_neg (by omega)]; omega

/-- A float word broadcast over the grid is that word at every index. -/
theorem splat_apply (w : BitVec 32) (i : S4096x4096.Idx) : RefTerm.splat (F := Ideal) w i = Ideal.ofBits .f32 w := rfl

/-- The Laplacian at (r, q): south + north + east + west - 4 v, with reflected neighbours. -/
theorem lap_apply (v : FVec Ideal S4096x4096 .f32) (r q : Fin 4096) :
    RefTerm.lap (F := Ideal) v (ix2 r q)
      = v (ix2 (Spec.next r) q) + v (ix2 (Spec.prev r) q) + v (ix2 r (Spec.next q)) + v (ix2 r (Spec.prev q))
        - Spec.w4 * v (ix2 r q) := by
  unfold RefTerm.lap
  rw [subf_apply, addf_apply, addf_apply, addf_apply, mulf_apply, splat_apply,
    pad_slice v 2 1 _ r q (Spec.next r) q (next_shift r) (self_shift q),
    pad_slice v 0 1 _ r q (Spec.prev r) q (prev_shift r) (self_shift q),
    pad_slice v 1 2 _ r q r (Spec.next q) (self_shift r) (next_shift q),
    pad_slice v 1 0 _ r q r (Spec.prev q) (self_shift r) (prev_shift q)]
  rfl

/-! ## The four results -/

/-- The new voltage at (r, q) is the specification's cell. -/
theorem nv_apply (v s p c : FVec Ideal S4096x4096 .f32) (r q : Fin 4096) :
    RefTerm.nv (F := Ideal) v s p c (ix2 r q)
      = Spec.cell (v (ix2 (Spec.next r) q)) (v (ix2 (Spec.prev r) q)) (v (ix2 r (Spec.next q))) (v (ix2 r (Spec.prev q)))
          (v (ix2 r q)) (s (ix2 r q)) (p (ix2 r q)) (c (ix2 r q)) := by
  show Ideal.tanh (v (ix2 r q) + Spec.wA * (Spec.wHalf * RefTerm.lap (F := Ideal) v (ix2 r q) + Spec.wA * s (ix2 r q)
    - Spec.wB * p (ix2 r q) + Spec.wG * c (ix2 r q))) = _
  rw [lap_apply]
  rfl

theorem nv_eq (v s p c : FVec Ideal S4096x4096 .f32) : RefTerm.nv (F := Ideal) v s p c = Cert.Spec.nv v s p c := by
  funext i
  obtain ⟨r, q, rfl⟩ : ∃ (r q : Fin 4096), i = ix2 r q := ⟨i 0, i 1, eq_ix2 i⟩
  exact nv_apply v s p c r q
theorem ns_eq (v s p c : FVec Ideal S4096x4096 .f32) : RefTerm.ns (F := Ideal) v s p c = Cert.Spec.ns v s p c := by
  funext i
  show s i * Spec.wD + Spec.wB * max (RefTerm.nv (F := Ideal) v s p c i) Spec.w0 = _
  rw [nv_eq]
  rfl
theorem np_eq (v s p c : FVec Ideal S4096x4096 .f32) : RefTerm.np (F := Ideal) v s p c = Cert.Spec.np v s p c := by
  funext i
  show p i * Spec.wD + Spec.wB * max (-(RefTerm.nv (F := Ideal) v s p c i)) Spec.w0
    = p i * Spec.wD + Spec.wB * max (Spec.w0 - Spec.nv v s p c i) Spec.w0
  rw [nv_eq, show Spec.w0 = 0 from Ideal.ofBits_zero_f32, zero_sub]
theorem nc_eq (v s p c : FVec Ideal S4096x4096 .f32) : RefTerm.nc (F := Ideal) v s p c = Cert.Spec.nc v s p c := by
  funext i
  show c i * Spec.wD + Spec.wB * FloatOps.absf (F := Ideal) (φ := .f32) (RefTerm.nv (F := Ideal) v s p c i) = _
  rw [nv_eq]
  rfl

end Cert.ReferenceIdeal.RefRead

end
-- ==== Proof.lean ====
/-
  A five-point Laplacian step with reflected edges on a 4096 × 4096 voltage grid, followed by a
  cell-by-cell ion-channel update, computed by a kernel that walks the grid in 64-row tiles and reads
  the one row it needs above and below each tile from two 8-row halo blocks of the same array; against
  jnp's reflect padding and four shifted slices.

  Over the extended reals the two programs compute the same function cell by cell (Proof/Spec.lean):
  they add the four neighbours in the same order and apply the same operations with the same float
  words, so no algebraic law beyond `0 - x = -x` is used and the inputs' finiteness is never
  opened. The kernel's frame is proved at both instances from one text (Proof/KIFrame.lean and its
  copy Proof/KFrame.lean): the voltage array is held once and shared among the three windows on it
  (Proof/LibFrameShared.lean). The idealization rewrote nothing, so `preserves` is trivial.
-/
import proofs.«161542_j59382217834966_1_alg».proof.Defs
import proofs.«161542_j59382217834966_1_alg».proof.Proof.Gen.Pre_finite_inputs
import proofs.«161542_j59382217834966_1_alg».proof.Proof.KFrame
import proofs.«161542_j59382217834966_1_alg».proof.Proof.KIFrame
import proofs.«161542_j59382217834966_1_alg».proof.Proof.KIValue
import proofs.«161542_j59382217834966_1_alg».proof.Proof.RefRun
import proofs.«161542_j59382217834966_1_alg».proof.Proof.RefRead

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Hand.run (F := Ideal) m ρ)

/-- The ideal pass rewrote no operation. -/
theorem preserves : Cert.preserves_Kernel_KernelIdeal := trivial

/-- Both idealized programs end with the specification's four arrays of the (agreeing) arguments. -/
theorem algebraic : Cert.algebraic_KernelIdeal_ReferenceIdeal := by
  intro m ρ m' ρ' _ hagree
  refine ⟨_, _, _, _, Cert.KernelIdeal.Hand.run_values m ρ, ?_⟩
  refine (θ_run Cert.ReferenceIdeal.defs _ _).mono (fun _ h c => ?_) (Cert.ReferenceIdeal.Hand.run (F := Ideal) m' ρ')
  obtain ⟨h0, h1, h2, h3, ha⟩ := h c
  obtain ⟨e0, e1, e2, e3⟩ := hagree c
  refine ⟨?_, ?_, ?_, ?_, ha⟩
  · rw [h0, Cert.ReferenceIdeal.RefRead.nv_eq, e0, e1, e2, e3]
  · rw [h1, Cert.ReferenceIdeal.RefRead.ns_eq, e0, e1, e2, e3]
  · rw [h2, Cert.ReferenceIdeal.RefRead.np_eq, e0, e1, e2, e3]
  · rw [h3, Cert.ReferenceIdeal.RefRead.nc_eq, e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
